-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000x1 : Shape := ⟨2, ![3200000, 1]⟩
abbrev S256x64 : Shape := ⟨2, ![256, 64]⟩
abbrev S64 : Shape := ⟨1, ![64]⟩
abbrev S320x128 : Shape := ⟨2, ![320, 128]⟩
abbrev S128 : Shape := ⟨1, ![128]⟩
abbrev S128x64 : Shape := ⟨2, ![128, 64]⟩
abbrev S192x64 : Shape := ⟨2, ![192, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S192x64 : S_.BroadcastsInDim S192x64 (![] : Fin 0 → Fin S192x64.rank)
  reducesTo_S192x64_S_d0_1 : S192x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S32 .f32) (main_arg13 : FVec F S32x1 .f32) (main_arg14 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1 .f32 := Host.absf main_arg13
  let main_cst_22 : FVec F S_ .f32 := constant S_ .f32 0x7F800000#32
  let main_v60 : FVec F S32x1 .f32 := broadcastInDim S32x1 ![] bcast_S_S32x1 main_cst_22
  let main_v61 : IVec S32x1 1 := cmpf .olt main_v59 main_v60
  let main_c_23 : IVec S_ 1 := constantI S_ 1 1#1
  let main_v62 : IVec S_ 1 := (fun x v => Host.reduce IntOp.andi x v reducesTo_S32x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S64 .f32) (main_arg9 : FVec F S192x64 .f32) (main_arg10 : FVec F S64 .f32) (main_arg11 : FVec F S64x32 .f32) (main_arg12 : FVec F S32 .f32) (main_arg13 : FVec F S32x1 .f32) (main_arg14 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg9
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg12 main_arg13 main_arg14 main_v48 main_v49 main_v50

def fn_part1 {F : FTy → Type} [FloatOps F] (main_arg5 : FVec F S320x128 .f32) (main_arg6 : FVec F S128 .f32) (main_arg7 : FVec F S128x64 .f32) (main_arg8 : FVec F S64 .f32) (main_arg9 : FVec F S192x64 .f32) (main_arg10 : FVec F S64 .f32) (main_arg11 : FVec F S64x32 .f32) (main_arg12 : FVec F S32 .f32) (main_arg13 : FVec F S32x1 .f32) (main_arg14 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S320x128 .f32 := Host.absf main_arg5
  let main_cst_6 : FVec F S_ .f32 := constant S_ .f32 0x7F800000#32
  let main_v20 : FVec F S320x128 .f32 := broadcastInDim S320x128 ![] bcast_S_S320x128 main_cst_6
  let main_v21 : IVec S320x128 1 := cmpf .olt main_v19 main_v20
  let main_c_7 : IVec S_ 1 := constantI S_ 1 1#1
  let main_v22 : IVec S_ 1 := (fun x v => Host.reduce IntOp.andi x v reducesTo_S320x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x256 .f32) (main_arg1 : IVec S2x3200000 32) (main_arg2 : FVec F S3200000x1 .f32) (main_arg3 : FVec F S256x64 .f32) (main_arg4 : FVec F S64 .f32) (main_arg5 : FVec F S320x128 .f32) (main_arg6 : FVec F S128 .f32) (main_arg7 : FVec F S128x64 .f32) (main_arg8 : FVec F S64 .f32) (main_arg9 : FVec F S192x64 .f32) (main_arg10 : FVec F S64 .f32) (main_arg11 : FVec F S64x32 .f32) (main_arg12 : FVec F S32 .f32) (main_arg13 : FVec F S32x1 .f32) (main_arg14 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000x1 .f32 := Host.absf main_arg2
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x256 : Shape := ⟨2, ![100000, 256]⟩
abbrev S2x3200000 : Shape := ⟨2, ![2, 3200000]⟩
abbrev S3200000x1 : Shape := ⟨2, ![3200000, 1]⟩
abbrev S256x64 : Shape := ⟨2, ![256, 64]⟩
abbrev S64 : Shape := ⟨1, ![64]⟩
abbrev S320x128 : Shape := ⟨2, ![320, 128]⟩
abbrev S128 : Shape := ⟨1, ![128]⟩
abbrev S128x64 : Shape := ⟨2, ![128, 64]⟩
abbrev S192x64 : Shape := ⟨2, ![192, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S1x64 : Shape := ⟨2, ![1, 64]⟩
abbrev S100000x64 : Shape := ⟨2, ![100000, 64]⟩
abbrev S5000x256 : Shape := ⟨2, ![5000, 256]⟩
abbrev S5000x64 : Shape := ⟨2, ![5000, 64]⟩
abbrev S_ : Shape := ⟨0, ![]⟩
abbrev S3200000x64 : Shape := ⟨2, ![3200000, 64]⟩
abbrev S100000 : Shape := ⟨1, ![100000]⟩
abbrev S100000x1 : Shape := ⟨2, ![100000, 1]⟩
abbrev S256x128 : Shape := ⟨2, ![256, 128]⟩
abbrev S64x128 : Shape := ⟨2, ![64, 128]⟩
abbrev S1x128 : Shape := ⟨2, ![1, 128]⟩
abbrev S100000x128 : Shape := ⟨2, ![100000, 128]⟩
abbrev S5000x128 : Shape := ⟨2, ![5000, 128]⟩
abbrev S64x64 : Shape := ⟨2, ![64, 64]⟩
abbrev S1x32 : Shape := ⟨2, ![1, 32]⟩
abbrev S1x1 : Shape := ⟨2, ![1, 1]⟩
abbrev S5000x1 : Shape := ⟨2, ![5000, 1]⟩
abbrev S5000x32 : Shape := ⟨2, ![5000, 32]⟩

abbrev nBuf : Space → Nat
  | .hbm => 84
  | .vmem => 38
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000x1, .f32⟩
  | .hbm, ⟨3, _⟩ => ⟨S256x64, .f32⟩
  | .hbm, ⟨4, _⟩ => ⟨S64, .f32⟩
  | .hbm, ⟨5, _⟩ => ⟨S320x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S1x3200000, .i32⟩
  | .hbm, ⟨16, _⟩ => ⟨S3200000, .i32⟩
  | .hbm, ⟨17, _⟩ => ⟨S1x3200000, .i32⟩
  | .hbm, ⟨18, _⟩ => ⟨S3200000, .i32⟩
  | .hbm, ⟨19, _⟩ => ⟨S1x64, .f32⟩
  | .hbm, ⟨20, _⟩ => ⟨S100000x64, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x64, .f32⟩
  | .hbm, ⟨30, _⟩ => ⟨S_, .f32⟩
  | .hbm, ⟨31, _⟩ => ⟨S100000x64, .f32⟩
  | .hbm, ⟨32, _⟩ => ⟨S3200000x1, .i32⟩
  | .hbm, ⟨33, _⟩ => ⟨S100000x64, .f32⟩
  | .hbm, ⟨34, _⟩ => ⟨S_, .f32⟩
  | .hbm, ⟨35, _⟩ => ⟨S3200000, .f32⟩
  | .hbm, ⟨36, _⟩ => ⟨S_, .f32⟩
  | .hbm, ⟨37, _⟩ => ⟨S100000, .f32⟩
  | .hbm, ⟨38, _⟩ => ⟨S3200000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S256x128, .f32⟩
  | .hbm, ⟨47, _⟩ => ⟨S64x128, .f32⟩
  | .hbm, ⟨48, _⟩ => ⟨S1x128, .f32⟩
  | .hbm, ⟨49, _⟩ => ⟨S100000x128, .f32⟩
  | .hbm, ⟨50, _⟩ => ⟨S1x64, .f32⟩
  | .hbm, ⟨51, _⟩ => ⟨S100000x64, .f32⟩
  | .hbm, ⟨52, _⟩ => ⟨S_, .i32⟩
  | .hbm, ⟨53, _⟩ => ⟨S3200000, .i32⟩
  | .hbm, ⟨54, _⟩ => ⟨S3200000, .i1⟩
  | .hbm, ⟨55, _⟩ => ⟨S_, .i32⟩
  | .hbm, ⟨56, _⟩ => ⟨S3200000, .i32⟩
  | .hbm, ⟨57, _⟩ => ⟨S3200000, .i32⟩
  | .hbm, ⟨58, _⟩ => ⟨S3200000, .i32⟩
  | .hbm, ⟨59, _⟩ => ⟨S3200000x1, .i32⟩
  | .hbm, ⟨60, _⟩ => ⟨S3200000x64, .f32⟩
  | .hbm, ⟨61, _⟩ => ⟨S_, .f32⟩
  | .hbm, ⟨62, _⟩ => ⟨S100000x64, .f32⟩
  | .hbm, ⟨63, _⟩ => ⟨S3200000x1, .i32⟩
  | .hbm, ⟨64, _⟩ => ⟨S100000x64, .f32⟩
  | .hbm, ⟨65, _⟩ => ⟨S_, .f32⟩
  | .hbm, ⟨66, _⟩ => ⟨S3200000, .f32⟩
  | .hbm, ⟨67, _⟩ => ⟨S_, .f32⟩
  | .hbm, ⟨68, _⟩ => ⟨S100000, .f32⟩
  | .hbm, ⟨69, _⟩ => ⟨S3200000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S128x64, .f32⟩
  | .hbm, ⟨78, _⟩ => ⟨S64x64, .f32⟩
  | .hbm, ⟨79, _⟩ => ⟨S1x64, .f32⟩
  | .hbm, ⟨80, _⟩ => ⟨S100000x64, .f32⟩
  | .hbm, ⟨81, _⟩ => ⟨S1x32, .f32⟩
  | .hbm, ⟨82, _⟩ => ⟨S1x1, .f32⟩
  | .hbm, ⟨83, _⟩ => ⟨S100000x1, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x256, .f32⟩
  | .local _ .vmem, ⟨7, _⟩ => ⟨S5000x256, .f32⟩
  | .local _ .vmem, ⟨8, _⟩ => ⟨S5000x64, .f32⟩
  | .local _ .vmem, ⟨9, _⟩ => ⟨S5000x64, .f32⟩
  | .local _ .vmem, ⟨10, _⟩ => ⟨S256x128, .f32⟩
  | .local _ .vmem, ⟨11, _⟩ => ⟨S64x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x128, .f32⟩
  | .local _ .vmem, ⟨22, _⟩ => ⟨S5000x128, .f32⟩
  | .local _ .vmem, ⟨23, _⟩ => ⟨S5000x64, .f32⟩
  | .local _ .vmem, ⟨24, _⟩ => ⟨S5000x64, .f32⟩
  | .local _ .vmem, ⟨25, _⟩ => ⟨S128x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x32, .f32⟩
  | .local _ .vmem, ⟨33, _⟩ => ⟨S1x32, .f32⟩
  | .local _ .vmem, ⟨34, _⟩ => ⟨S32x1, .f32⟩
  | .local _ .vmem, ⟨35, _⟩ => ⟨S1x1, .f32⟩
  | .local _ .vmem, ⟨36, _⟩ => ⟨S5000x1, .f32⟩
  | .local _ .vmem, ⟨37, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S320x128_S256x128_0_0 : S320x128.Slices ![0, 0] S256x128
  slices_S320x128_S64x128_256_0 : S320x128.Slices ![256, 0] S64x128
  shapeCasts_S128_S1x128 : S128.ShapeCasts S1x128
  shapeCasts_S5000x64_S5000x64 : S5000x64.ShapeCasts S5000x64
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  slices_S192x64_S128x64_0_0 : S192x64.Slices ![0, 0] S128x64
  slices_S192x64_S64x64_128_0 : S192x64.Slices ![128, 0] S64x64
  shapeCasts_S128x64_S128x64 : S128x64.ShapeCasts S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x256_S256x64_S5000x64_1_0_0_1_n_n_wf : DotDims.WF S5000x256 S256x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S5000x256_S256x128_S5000x128_1_0_0_1_n_n_wf : DotDims.WF S5000x256 S256x128 S5000x128 [1] [0] [0] [1] [] []
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x1.size a ≤ S32x1.size a
  hwx4_3 : ∀ i : grid4.Coords, EltTy.bits .f32 = 32 ∨ (Rect.block (s := S32x1) S32x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S100000x1.size a
  hwx4_5 : ∀ i : grid4.Coords, EltTy.bits .f32 = 32 ∨ (Rect.block (s := S100000x1) S5000x1.size (cc4_transform_5 i) (hinb4_5 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v28) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v53) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S32x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v56) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000x1 : Shape := ⟨2, ![3200000, 1]⟩
abbrev S256x64 : Shape := ⟨2, ![256, 64]⟩
abbrev S64 : Shape := ⟨1, ![64]⟩
abbrev S320x128 : Shape := ⟨2, ![320, 128]⟩
abbrev S128 : Shape := ⟨1, ![128]⟩
abbrev S128x64 : Shape := ⟨2, ![128, 64]⟩
abbrev S192x64 : Shape := ⟨2, ![192, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S1x64 : Shape := ⟨2, ![1, 64]⟩
abbrev S_ : Shape := ⟨0, ![]⟩
abbrev S3200000x64 : Shape := ⟨2, ![3200000, 64]⟩
abbrev S100000 : Shape := ⟨1, ![100000]⟩
abbrev S100000x1 : Shape := ⟨2, ![100000, 1]⟩
abbrev S100000x320 : Shape := ⟨2, ![100000, 320]⟩
abbrev S100000x128 : Shape := ⟨2, ![100000, 128]⟩
abbrev S1x128 : Shape := ⟨2, ![1, 128]⟩
abbrev S100000x192 : Shape := ⟨2, ![100000, 192]⟩
abbrev S100000x32 : Shape := ⟨2, ![100000, 32]⟩
abbrev S1x32 : Shape := ⟨2, ![1, 32]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000x1, .f32⟩
  | .hbm, ⟨3, _⟩ => ⟨S256x64, .f32⟩
  | .hbm, ⟨4, _⟩ => ⟨S64, .f32⟩
  | .hbm, ⟨5, _⟩ => ⟨S320x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S1x3200000, .i32⟩
  | .hbm, ⟨16, _⟩ => ⟨S3200000, .i32⟩
  | .hbm, ⟨17, _⟩ => ⟨S1x3200000, .i32⟩
  | .hbm, ⟨18, _⟩ => ⟨S3200000, .i32⟩
  | .hbm, ⟨19, _⟩ => ⟨S100000x64, .f32⟩
  | .hbm, ⟨20, _⟩ => ⟨S1x64, .f32⟩
  | .hbm, ⟨21, _⟩ => ⟨S100000x64, .f32⟩
  | .hbm, ⟨22, _⟩ => ⟨S100000x64, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000x64, .f32⟩
  | .hbm, ⟨32, _⟩ => ⟨S_, .f32⟩
  | .hbm, ⟨33, _⟩ => ⟨S100000x64, .f32⟩
  | .hbm, ⟨34, _⟩ => ⟨S3200000x1, .i32⟩
  | .hbm, ⟨35, _⟩ => ⟨S100000x64, .f32⟩
  | .hbm, ⟨36, _⟩ => ⟨S_, .f32⟩
  | .hbm, ⟨37, _⟩ => ⟨S3200000, .f32⟩
  | .hbm, ⟨38, _⟩ => ⟨S_, .f32⟩
  | .hbm, ⟨39, _⟩ => ⟨S100000, .f32⟩
  | .hbm, ⟨40, _⟩ => ⟨S3200000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S100000x320, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x64, .f32⟩
  | .hbm, ⟨69, _⟩ => ⟨S_, .f32⟩
  | .hbm, ⟨70, _⟩ => ⟨S100000x64, .f32⟩
  | .hbm, ⟨71, _⟩ => ⟨S3200000x1, .i32⟩
  | .hbm, ⟨72, _⟩ => ⟨S100000x64, .f32⟩
  | .hbm, ⟨73, _⟩ => ⟨S_, .f32⟩
  | .hbm, ⟨74, _⟩ => ⟨S3200000, .f32⟩
  | .hbm, ⟨75, _⟩ => ⟨S_, .f32⟩
  | .hbm, ⟨76, _⟩ => ⟨S100000, .f32⟩
  | .hbm, ⟨77, _⟩ => ⟨S3200000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x64, .f32⟩
  | .hbm, ⟨84, _⟩ => ⟨S100000x64, .f32⟩
  | .hbm, ⟨85, _⟩ => ⟨S100000x192, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S100000x32, .f32⟩
  | .hbm, ⟨94, _⟩ => ⟨S1x32, .f32⟩
  | .hbm, ⟨95, _⟩ => ⟨S100000x32, .f32⟩
  | .hbm, ⟨96, _⟩ => ⟨S100000x32, .f32⟩
  | .hbm, ⟨97, _⟩ => ⟨S_, .f32⟩
  | .hbm, ⟨98, _⟩ => ⟨S100000x32, .f32⟩
  | .hbm, ⟨99, _⟩ => ⟨S100000x32, .f32⟩
  | .hbm, ⟨100, _⟩ => ⟨S100000x1, .f32⟩
  | .hbm, ⟨101, _⟩ => ⟨S1x1, .f32⟩
  | .hbm, ⟨102, _⟩ => ⟨S100000x1, .f32⟩
  | .hbm, ⟨103, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_cst : Ref sig .tc := ⟨.hbm, 53, rfl⟩
abbrev main_call0_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_4 : Ref sig .tc := ⟨.hbm, 60, rfl⟩
abbrev main_v37 : Ref sig .tc := ⟨.hbm, 61, rfl⟩
abbrev main_v38 : Ref sig .tc := ⟨.hbm, 62, rfl⟩
abbrev main_c_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call1_cst : Ref sig .tc := ⟨.hbm, 90, rfl⟩
abbrev main_call1_v0 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_cst : Ref sig .tc := ⟨.hbm, 97, rfl⟩
abbrev main_call2_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x256_S100000x64_S100000x320_d1 : Shape.Concatenates [S100000x256, S100000x64] S100000x320 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x64_S100000x192_d1 : Shape.Concatenates [S100000x128, S100000x64] S100000x192 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x256_S256x64_S100000x64_1_0_0_1_n_n_wf : DotDims.WF S100000x256 S256x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S100000x320_S320x128_S100000x128_1_0_0_1_n_n_wf : DotDims.WF S100000x320 S320x128 S100000x128 [1] [0] [0] [1] [] []
  dot_S100000x128_S128x64_S100000x64_1_0_0_1_n_n_wf : DotDims.WF S100000x128 S128x64 S100000x64 [1] [0] [0] [1] [] []
  dot_S100000x192_S192x64_S100000x64_1_0_0_1_n_n_wf : DotDims.WF S100000x192 S192x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x320_S320x128_S100000x128_1_0_0_1_n_n : DotDims S100000x320 S320x128 S100000x128 where
  lhsContracting := [1]
  rhsContracting := [0]
  lhsNonContracting := [0]
  rhsNonContracting := [1]
  lhsBatch := []
  rhsBatch := []
  wf := dot_S100000x320_S320x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Spec.lean ====
/-
  What the two programs compute, as functions of whole arrays over the extended reals, index by index.

  A dense layer: row `r`, column `c` of `lin x w b` is the row of `x` against the column of `w`, plus the bias entry
  `b[0, c]` (the bias is held as a one-row matrix). A graph-convolution update `upd a g wa wb b` adds the node's own
  features `a` against `wa` and the aggregated messages `g` against `wb`, adds the bias, and clamps below at zero.
  `relu` is that clamp alone. All three are ROW-WISE: rows `off … off + n` of the result depend on the same rows of the
  row-indexed operands only (`rows`), which is what lets a kernel compute them one block of rows at a time.

  Below the definitions: a `tpu.matmul` into a zero accumulator read at an entry (the sum over the contracted axis `k`
  of `x[r, k] · w[k, c]`), a one-row bias broadcast down the rows, and the one law that joins the two programs: a sum
  over `ka + kb` terms is the sum of its first `ka` and its last `kb` terms, which on the extended reals needs only
  that addition is commutative and associative.
-/
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- The shape of an `n × m` matrix. -/
abbrev Sh (n m : Nat) : Shape := ⟨2, ![n, m]⟩
/-- An `n × m` matrix of extended reals. -/
abbrev Mat (n m : Nat) : Type := (Sh n m).Idx → EReal

/-- The zero the programs clamp at: the all-zero `f32` word read as an extended real. -/
abbrev zeroWord : EReal := Ideal.ofBits .f32 0x00000000#32

/-- `x · w + b`, the bias a one-row matrix added to every row. -/
def lin {n k m : Nat} (x : Mat n k) (w : Mat k m) (b : Mat 1 m) : Mat n m := fun i =>
  (∑ j : Fin k, x (ix2 (i 0) j) * w (ix2 j (i 1))) + b (ix2 ⟨0, Nat.one_pos⟩ (i 1))

/-- `max(·, 0)` entry by entry. -/
def relu {n m : Nat} (y : Mat n m) : Mat n m := fun i => max (y i) zeroWord

/-- `max(a · wa + g · wb + b, 0)`: the update of one graph-convolution layer. -/
def upd {n ka kb m : Nat} (a : Mat n ka) (g : Mat n kb) (wa : Mat ka m) (wb : Mat kb m) (b : Mat 1 m) : Mat n m := fun i =>
  max (((∑ j : Fin ka, a (ix2 (i 0) j) * wa (ix2 j (i 1))) + (∑ j : Fin kb, g (ix2 (i 0) j) * wb (ix2 j (i 1))))
      + b (ix2 ⟨0, Nat.one_pos⟩ (i 1))) zeroWord

/-- Rows `off … off + n` of a matrix of `N` rows. -/
def rows {N k : Nat} (n off : Nat) (h : off + n ≤ N) (X : Mat N k) : Mat n k := fun y =>
  X (ix2 ⟨off + (y 0).val, by have := idx2_lt0 y; omega⟩ (y 1))

theorem lin_rows {N k m : Nat} (n off : Nat) (h : off + n ≤ N) (X : Mat N k) (w : Mat k m) (b : Mat 1 m) :
    lin (rows n off h X) w b = rows n off h (lin X w b) := rfl

theorem relu_rows {N m : Nat} (n off : Nat) (h : off + n ≤ N) (Y : Mat N m) :
    relu (rows n off h Y) = rows n off h (relu Y) := rfl

theorem upd_rows {N ka kb m : Nat} (n off : Nat) (h : off + n ≤ N) (A : Mat N ka) (G : Mat N kb) (wa : Mat ka m) (wb : Mat kb m)
    (b : Mat 1 m) : upd (rows n off h A) (rows n off h G) wa wb b = rows n off h (upd A G wa wb b) := rfl

@[simp] theorem ix2_zero {n0 n1 : Nat} (a : Fin n0) (b : Fin n1) : ix2 a b 0 = a := rfl
@[simp] theorem ix2_one {n0 n1 : Nat} (a : Fin n0) (b : Fin n1) : ix2 a b 1 = b := rfl

/-! ## A block of rows of the result from blocks of rows of the operands

The operands reach a kernel through index embeddings `e` (a block's index to the array's). Where the row-indexed operands'
embeddings carry row `j 0` of the block to row `i 0` of the array and the others are the identity on what is read, entry `j`
of the block's result is entry `i` of the arrays' result. -/

theorem lin_block {N n k m : Nat} (X : Mat N k) (W : Mat k m) (B : Mat 1 m)
    (e0 : (Sh n k).Idx → (Sh N k).Idx) (e1 : (Sh k m).Idx → (Sh k m).Idx) (e2 : (Sh 1 m).Idx → (Sh 1 m).Idx)
    (j : (Sh n m).Idx) (i : (Sh N m).Idx)
    (h0 : ∀ q : Fin k, e0 (ix2 (j 0) q) = ix2 (i 0) q) (h1 : ∀ q : Fin k, e1 (ix2 q (j 1)) = ix2 q (i 1))
    (h2 : e2 (ix2 ⟨0, Nat.one_pos⟩ (j 1)) = ix2 ⟨0, Nat.one_pos⟩ (i 1)) :
    lin (fun y => X (e0 y)) (fun y => W (e1 y)) (fun y => B (e2 y)) j = lin X W B i := by
  unfold lin
  simp only [h0, h1, h2]
  rfl

theorem upd_block {N n ka kb m : Nat} (A : Mat N ka) (G : Mat N kb) (WA : Mat ka m) (WB : Mat kb m) (B : Mat 1 m)
    (e0 : (Sh n ka).Idx → (Sh N ka).Idx) (e1 : (Sh n kb).Idx → (Sh N kb).Idx) (e2 : (Sh ka m).Idx → (Sh ka m).Idx)
    (e3 : (Sh kb m).Idx → (Sh kb m).Idx) (e4 : (Sh 1 m).Idx → (Sh 1 m).Idx)
    (j : (Sh n m).Idx) (i : (Sh N m).Idx)
    (h0 : ∀ q : Fin ka, e0 (ix2 (j 0) q) = ix2 (i 0) q) (h1 : ∀ q : Fin kb, e1 (ix2 (j 0) q) = ix2 (i 0) q)
    (h2 : ∀ q : Fin ka, e2 (ix2 q (j 1)) = ix2 q (i 1)) (h3 : ∀ q : Fin kb, e3 (ix2 q (j 1)) = ix2 q (i 1))
    (h4 : e4 (ix2 ⟨0, Nat.one_pos⟩ (j 1)) = ix2 ⟨0, Nat.one_pos⟩ (i 1)) :
    upd (fun y => A (e0 y)) (fun y => G (e1 y)) (fun y => WA (e2 y)) (fun y => WB (e3 y)) (fun y => B (e4 y)) j
      = upd A G WA WB B i := by
  unfold upd
  simp only [h0, h1, h2, h3, h4]
  rfl

theorem head_block {N n k h m : Nat} (X : Mat N k) (W1 : Mat k h) (B1 : Mat 1 h) (W2 : Mat h m) (B2 : Mat 1 m)
    (e0 : (Sh n k).Idx → (Sh N k).Idx) (e1 : (Sh k h).Idx → (Sh k h).Idx) (e2 : (Sh 1 h).Idx → (Sh 1 h).Idx)
    (e3 : (Sh h m).Idx → (Sh h m).Idx) (e4 : (Sh 1 m).Idx → (Sh 1 m).Idx)
    (j : (Sh n m).Idx) (i : (Sh N m).Idx)
    (h0 : ∀ p : Fin k, e0 (ix2 (j 0) p) = ix2 (i 0) p) (h1 : ∀ y, e1 y = y) (h2 : ∀ y, e2 y = y)
    (h3 : ∀ q : Fin h, e3 (ix2 q (j 1)) = ix2 q (i 1)) (h4 : e4 (ix2 ⟨0, Nat.one_pos⟩ (j 1)) = ix2 ⟨0, Nat.one_pos⟩ (i 1)) :
    lin (relu (lin (fun y => X (e0 y)) (fun y => W1 (e1 y)) (fun y => B1 (e2 y)))) (fun y => W2 (e3 y)) (fun y => B2 (e4 y)) j
      = lin (relu (lin X W1 B1)) W2 B2 i := by
  show (∑ x : Fin h, max ((∑ p : Fin k, X (e0 (ix2 (j 0) p)) * W1 (e1 (ix2 p x))) + B1 (e2 (ix2 ⟨0, Nat.one_pos⟩ x))) zeroWord
          * W2 (e3 (ix2 x (j 1)))) + B2 (e4 (ix2 ⟨0, Nat.one_pos⟩ (j 1)))
      = (∑ x : Fin h, max ((∑ p : Fin k, X (ix2 (i 0) p) * W1 (ix2 p x)) + B1 (ix2 ⟨0, Nat.one_pos⟩ x)) zeroWord * W2 (ix2 x (i 1)))
          + B2 (ix2 ⟨0, Nat.one_pos⟩ (i 1))
  simp only [h0, h1, h2, h3, h4]
  rfl

/-- A sum over `ka + kb` terms splits at `ka`. -/
theorem sum_split {ka kb : Nat} (f : Fin (ka + kb) → EReal) :
    ∑ j : Fin (ka + kb), f j = (∑ j : Fin ka, f (Fin.castAdd kb j)) + ∑ j : Fin kb, f (Fin.natAdd ka j) :=
  Fin.sum_univ_add f

/-! ## Reading the host's layout operations, and the law that joins the two programs -/

/-- A length-`m` vector reshaped to a one-row matrix, read at column `c`: the vector's entry `c`. -/
theorem row_apply {m : Nat} (b : (⟨1, ![m]⟩ : Shape).Idx → EReal) (h : (⟨1, ![m]⟩ : Shape).ShapeCasts (Sh 1 m)) (c : Fin m) :
    shapeCast (Sh 1 m) b h (ix2 ⟨0, Nat.one_pos⟩ c) = b (ix1 c) := by
  refine shapeCast_apply b h _ _ ?_
  rw [Shape.rowMajor_val_one, Shape.rowMajor_val_two]
  show c.val = 0 * m + c.val
  omega

/-- The upper `ka` rows of a matrix of `ka + kb` rows, read at an entry. -/
theorem top_apply {ka kb m : Nat} (w : Mat (ka + kb) m) (h : (Sh (ka + kb) m).Slices ![0, 0] (Sh ka m)) (r : Fin ka) (c : Fin m) :
    extractStridedSlice (Sh ka m) ![0, 0] w h (ix2 r c) = w (ix2 (Fin.castAdd kb r) c) := by
  refine extractStridedSlice_apply _ w h _ _ (fun a => ?_)
  match a with
  | ⟨0, _⟩ => show r.val = 0 + r.val; omega
  | ⟨1, _⟩ => show c.val = 0 + c.val; omega

/-- The lower `kb` rows of a matrix of `ka + kb` rows, read at an entry. -/
theorem bot_apply {ka kb m : Nat} (w : Mat (ka + kb) m) (h : (Sh (ka + kb) m).Slices ![ka, 0] (Sh kb m)) (r : Fin kb) (c : Fin m) :
    extractStridedSlice (Sh kb m) ![ka, 0] w h (ix2 r c) = w (ix2 (Fin.natAdd ka r) c) := by
  refine extractStridedSlice_apply _ w h _ _ (fun a => ?_)
  match a with
  | ⟨0, _⟩ => show ka + r.val = ka + r.val; rfl
  | ⟨1, _⟩ => show c.val = 0 + c.val; omega

/-- THE JOIN. One dense layer on the features `a` and `g` set side by side (`cat`), against the stacked weight `w`, is
    the update that meets `a` with the upper rows of `w` and `g` with the lower rows: the sum over the `ka + kb`
    stacked columns splits at `ka`. -/
theorem upd_eq_relu_lin {n ka kb m : Nat} (a : Mat n ka) (g : Mat n kb) (cat : Mat n (ka + kb)) (w : Mat (ka + kb) m)
    (wa : Mat ka m) (wb : Mat kb m) (b : Mat 1 m)
    (hl : ∀ (r : Fin n) (j : Fin ka), cat (ix2 r (Fin.castAdd kb j)) = a (ix2 r j))
    (hr : ∀ (r : Fin n) (j : Fin kb), cat (ix2 r (Fin.natAdd ka j)) = g (ix2 r j))
    (hwa : ∀ (j : Fin ka) (c : Fin m), wa (ix2 j c) = w (ix2 (Fin.castAdd kb j) c))
    (hwb : ∀ (j : Fin kb) (c : Fin m), wb (ix2 j c) = w (ix2 (Fin.natAdd ka j) c)) :
    upd a g wa wb b = relu (lin cat w b) := by
  funext i
  obtain ⟨r, c, rfl⟩ : ∃ (r : Fin n) (c : Fin m), i = ix2 r c := ⟨i 0, i 1, eq_ix2 i⟩
  show max (((∑ j : Fin ka, a (ix2 r j) * wa (ix2 j c)) + (∑ j : Fin kb, g (ix2 r j) * wb (ix2 j c)))
      + b (ix2 ⟨0, Nat.one_pos⟩ c)) zeroWord
    = max ((∑ j : Fin (ka + kb), cat (ix2 r j) * w (ix2 j c)) + b (ix2 ⟨0, Nat.one_pos⟩ c)) zeroWord
  rw [sum_split]
  simp only [hl, hr, hwa, hwb]

/-- The operand indices of a plain two-axis contraction at output entry `(r, c)` and contraction position `q`. -/
theorem plain_lhsIdx {M K N : Nat} (j : (Sh M N).Idx) (q : Fin K) :
    (DotDims.plain M K N).lhsIdx j ((contrEquiv1 (DotDims.plain M K N) K rfl rfl).symm q) = ix2 (j 0) q := by
  funext a
  apply Fin.ext
  match a with
  | ⟨0, _⟩ => rfl
  | ⟨1, _⟩ => exact ((DotDims.plain M K N).lhsIdx_val_of_single rfl j _).trans (contrEquiv1_symm_val (DotDims.plain M K N) K rfl rfl q)

theorem plain_rhsIdx {M K N : Nat} (j : (Sh M N).Idx) (q : Fin K) :
    (DotDims.plain M K N).rhsIdx j ((contrEquiv1 (DotDims.plain M K N) K rfl rfl).symm q) = ix2 q (j 1) := by
  funext a
  apply Fin.ext
  match a with
  | ⟨0, _⟩ => exact ((DotDims.plain M K N).rhsIdx_val_of_single rfl j _).trans (contrEquiv1_symm_val (DotDims.plain M K N) K rfl rfl q)
  | ⟨1, _⟩ => rfl

/-- A `tpu.matmul` into the zero accumulator, read at an entry: the row against the column. -/
theorem matmul_zero_apply {M K N : Nat} {φ₁ φ₂ : FTy} (prec : Option ContractPrecision)
    (x : FVec Ideal (Sh M K) φ₁) (w : FVec Ideal (Sh K N) φ₂) (j : (Sh M N).Idx) :
    FloatOps.matmul (DotDims.plain M K N) prec x w (constant (Sh M N) .f32 0x00000000#32) j
      = ∑ q : Fin K, x (ix2 (j 0) q) * w (ix2 q (j 1)) := by
  rw [Ideal.matmul_constant_zero_apply, ← Equiv.sum_comp (contrEquiv1 (DotDims.plain M K N) K rfl rfl).symm]
  refine Finset.sum_congr rfl fun q _ => ?_
  rw [plain_lhsIdx, plain_rhsIdx]
  rfl

/-- The host's contraction of the same two axes, read at an entry: the same sum. -/
theorem dotGeneral_apply {M K N : Nat} {φ₁ φ₂ : FTy} (prec : Option ContractPrecision) (sched : HostSchedule)
    (x : FVec Ideal (Sh M K) φ₁) (w : FVec Ideal (Sh K N) φ₂) (j : (Sh M N).Idx) :
    FloatOps.dotGeneral (DotDims.plain M K N) prec sched x w j = ∑ q : Fin K, x (ix2 (j 0) q) * w (ix2 q (j 1)) := by
  rw [Ideal.dotGeneral_apply, ← Equiv.sum_comp (contrEquiv1 (DotDims.plain M K N) K rfl rfl).symm]
  refine Finset.sum_congr rfl fun q _ => ?_
  rw [plain_lhsIdx, plain_rhsIdx]
  rfl

/-- A one-row matrix broadcast down `n` rows, read at an entry: the row's entry in that column. -/
theorem bias_row_apply {n m : Nat} (b : Mat 1 m) (h : (Sh 1 m).Broadcasts (Sh n m)) (j : (Sh n m).Idx) :
    broadcastTo (Sh n m) b h j = b (ix2 ⟨0, Nat.one_pos⟩ (j 1)) := by
  refine broadcastTo_apply b h j _ (fun a => ?_)
  match a with
  | ⟨0, _⟩ => show (0 : Nat) = if (1 : Nat) = 1 then 0 else _; rw [if_pos rfl]
  | ⟨1, _⟩ =>
    show (j 1).val = if m = 1 then 0 else (j 1).val
    have hj := idx2_lt1 j
    split
    · omega
    · rfl

end Cert.Spec

end
-- ==== Proof.Payloads.lean ====
/-
  What each kernel body stores, as a function of the blocks it loads, over the extended reals.

  At `Ideal` the casts to bf16 are the identity and a `tpu.matmul` into a zero accumulator is the plain row-against-column
  sum, so the five bodies are: a dense layer (`lin`) on 5000 rows; the graph-convolution update (`upd`) on 5000 rows; and
  for the head a dense layer, the clamp at zero, and a second dense layer. Each printed `dot` record is the plain
  two-axis contraction of its sizes.
-/
import proofs.«166479_j61529701482519_1_alg».proof.Proof.Gen.KernelIdeal.Skeleton
import proofs.«166479_j61529701482519_1_alg».proof.Proof.Spec

noncomputable section

namespace Cert.KernelIdeal.Pay

open Idealize.ShloMosaic Idealize.ShloMosaic.ValueIdx Cert.KernelIdeal Cert.KernelIdeal.Gen Cert.Spec

/-- The zero offset of a whole-block access, as the constant function. -/
theorem hz : (![0, 0] : Fin 2 → Nat) = fun _ => 0 := funext fun a => by fin_cases a <;> rfl

/-- The first dense layer's block: `x · w + b` on 5000 rows. -/
theorem pay0 (x : Vec Ideal S5000x256 .f32) (w : Vec Ideal S256x64 .f32) (b : Vec Ideal S1x64 .f32) :
    k0_pay1 (F := Ideal) x w b = lin (n := 5000) (k := 256) (m := 64) x w b := by
  funext j
  dsimp only [k0_pay1]
  simp only [shapeCast_self]
  rw [addf_apply]
  exact congrArg₂ (· + ·) (matmul_zero_apply (M := 5000) (K := 256) (N := 64) none _ _ j) (bias_row_apply (n := 5000) (m := 64) b _ j)

/-- The first update's block. -/
theorem pay1 (a : Vec Ideal S5000x256 .f32) (g : Vec Ideal S5000x64 .f32) (wa : Vec Ideal S256x128 .f32) (wb : Vec Ideal S64x128 .f32)
    (b : Vec Ideal S1x128 .f32) :
    k1_pay1 (F := Ideal) a g wa wb b = upd (n := 5000) (ka := 256) (kb := 64) (m := 128) a g wa wb b := by
  funext j
  dsimp only [k1_pay1]
  simp only [shapeCast_self]
  rw [maximumf_apply, addf_apply, addf_apply]
  exact congrArg₂ max (congrArg₂ (· + ·) (congrArg₂ (· + ·) (matmul_zero_apply (M := 5000) (K := 256) (N := 128) none _ _ j)
    (matmul_zero_apply (M := 5000) (K := 64) (N := 128) none _ _ j)) (bias_row_apply (n := 5000) (m := 128) b _ j)) rfl

theorem pay2 (x : Vec Ideal S5000x128 .f32) (w : Vec Ideal S128x64 .f32) (b : Vec Ideal S1x64 .f32) :
    k2_pay1 (F := Ideal) x w b = lin (n := 5000) (k := 128) (m := 64) x w b := by
  funext j
  dsimp only [k2_pay1]
  simp only [shapeCast_self]
  rw [addf_apply]
  exact congrArg₂ (· + ·) (matmul_zero_apply (M := 5000) (K := 128) (N := 64) none _ _ j) (bias_row_apply (n := 5000) (m := 64) b _ j)

theorem pay3 (a : Vec Ideal S5000x128 .f32) (g : Vec Ideal S5000x64 .f32) (wa : Vec Ideal S128x64 .f32) (wb : Vec Ideal S64x64 .f32)
    (b : Vec Ideal S1x64 .f32) :
    k3_pay1 (F := Ideal) a g wa wb b = upd (n := 5000) (ka := 128) (kb := 64) (m := 64) a g wa wb b := by
  funext j
  dsimp only [k3_pay1]
  simp only [shapeCast_self]
  rw [maximumf_apply, addf_apply, addf_apply]
  exact congrArg₂ max (congrArg₂ (· + ·) (congrArg₂ (· + ·) (matmul_zero_apply (M := 5000) (K := 128) (N := 64) none _ _ j)
    (matmul_zero_apply (M := 5000) (K := 64) (N := 64) none _ _ j)) (bias_row_apply (n := 5000) (m := 64) b _ j)) rfl

/-- The head's block: a dense layer, the clamp, a second dense layer. -/
theorem pay4 (x : Vec Ideal S5000x64 .f32) (w1 : Vec Ideal S64x32 .f32) (b1 : Vec Ideal S1x32 .f32) (w2 : Vec Ideal S32x1 .f32)
    (b2 : Vec Ideal S1x1 .f32) :
    k4_pay1 (F := Ideal) x w1 b1 w2 b2
      = lin (n := 5000) (k := 32) (m := 1) (relu (lin (n := 5000) (k := 64) (m := 32) x w1 b1)) w2 b2 := by
  funext j
  dsimp only [k4_pay1]
  simp only [shapeCast_self]
  rw [addf_apply]
  refine congrArg₂ (· + ·) ((matmul_zero_apply (M := 5000) (K := 32) (N := 1) none _ _ j).trans ?_) (bias_row_apply (n := 5000) (m := 1) b2 _ j)
  refine Finset.sum_congr rfl fun q _ => congrArg (· * w2 (ix2 q (j 1))) ?_
  show max (_ + _) _ = max (_ + _) _
  exact congrArg₂ max (congrArg₂ (· + ·) (matmul_zero_apply (M := 5000) (K := 64) (N := 32) none _ _ (ix2 (j 0) q))
    (bias_row_apply (n := 5000) (m := 32) b1 _ (ix2 (j 0) q))) rfl

end Cert.KernelIdeal.Pay

end
-- ==== Proof.Region0.lean ====
/-
  The array the first pallas_call leaves: the first layer's messages, a dense layer of `x`.

  The pallas_call walks the node rows in twenty blocks of 5000. At grid point `t` every row-indexed window sits at block
  row `t` and every other window (weights, bias) is fetched whole, so what the body leaves in the output's staging buffer is
  rows `5000 t … 5000 t + 4999` of ONE whole-array function of the arrays the region found; the twenty blocks cover the
  output array, which therefore ends holding that function.
-/
import proofs.«166479_j61529701482519_1_alg».proof.Proof.KernelIdealFrame
import proofs.«166479_j61529701482519_1_alg».proof.Proof.Payloads

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Spec Cert.KernelIdeal.Pay

variable (V : (c : Dev nD) → (b : Ref sig .tc) → Buf (Elt Ideal) ((c : Thread nD τ).loc b))

/-! ## The first dense layer (pallas_call 0): rows of `x` in blocks of 5000, the weight and the bias whole -/

/-- The printed index maps over the grid: the row-tiled windows sit at block row `t`, column block 0; the whole windows at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 1000000 in
/-- What point `t` writes back is block `t` of the dense layer of the arrays as the region finds them. -/
theorem flushed0 (c : Dev nD) (t : Fin cfg0.N) :
    (dat0 V c).flushed 3 t = ((cfg0.win 3).blk t).view.read (Elt Ideal)
      (lin (n := 100000) (k := 256) (m := 64) (V c main_arg0) (V c main_arg3) (V c main_v4)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x64) hz, View.ld_unit_zero (S := S1x64) hz]
  rw [pay0]
  obtain ⟨e0, e1, e2, e3, e4, e5, e6, e7⟩ := idx0 t
  funext j
  show lin (n := 5000) (k := 256) (m := 64) (iblk0 V c 0 t) (iblk0 V c 1 t) (iblk0 V c 2 t) j
    = lin (n := 100000) (k := 256) (m := 64) (V c main_arg0) (V c main_arg3) (V c main_v4) (((cfg0.win 3).blk t).view.emb j)
  have hj0 := idx2_lt0 j
  have hj1 := idx2_lt1 j
  refine lin_block (N := 100000) (n := 5000) (k := 256) (m := 64) (V c main_arg0) (V c main_arg3) (V c main_v4)
    ((cfg0.win 0).blk t).view.emb ((cfg0.win 1).blk t).view.emb ((cfg0.win 2).blk t).view.emb j (((cfg0.win 3).blk t).view.emb j)
    (fun q => ?_) (fun q => ?_) ?_
  · funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * q.val = q.val; omega
  · funext a; apply Fin.ext
    match a with
    | ⟨0, _⟩ => show win0_1.index t (0 : Fin 2) * 256 + 1 * q.val = q.val; omega
    | ⟨1, _⟩ => show win0_1.index t (1 : Fin 2) * 64 + 1 * (j 1).val = win0_3.index t (1 : Fin 2) * 64 + 1 * (j 1).val; omega
  · funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

/-- The twenty blocks of 5000 rows cover the output array: row `r` is in block `r / 5000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 5000, by show (i 0).val / 5000 < 20; omega⟩, flush0_3 _, ?_⟩
  rw [mem_blk0]
  obtain ⟨e0, e1, e2, e3, e4, e5, e6, e7⟩ := idx0 ⟨(i 0).val / 5000, by show (i 0).val / 5000 < 20; omega⟩
  intro a
  match a with
  | ⟨0, _⟩ => show win0_3.index _ (0 : Fin 2) * 5000 ≤ (i 0).val ∧ (i 0).val < win0_3.index _ (0 : Fin 2) * 5000 + 5000; rw [e6]; show (i 0).val / 5000 * 5000 ≤ _ ∧ _ < (i 0).val / 5000 * 5000 + 5000; omega
  | ⟨1, _⟩ => show win0_3.index _ (1 : Fin 2) * 64 ≤ (i 1).val ∧ (i 1).val < win0_3.index _ (1 : Fin 2) * 64 + 64; rw [e7]; omega

/-- The array the first pallas_call leaves: the dense layer of the arrays it found. -/
theorem final0 (c : Dev nD) :
    (dat0 V c).arrAt 3 cfg0.N = lin (n := 100000) (k := 256) (m := 64) (V c main_arg0) (V c main_arg3) (V c main_v4) :=
  (dat0 V c).arrAt_eq_of_cover 3 _ (fun t _ => flushed0 V c t) cover0

end Cert.KernelIdeal.Val

end
-- ==== Proof.Region1.lean ====
/-
  The array the second pallas_call leaves: the first layer's update.

  The pallas_call walks the node rows in twenty blocks of 5000. At grid point `t` every row-indexed window sits at block
  row `t` and every other window (weights, bias) is fetched whole, so what the body leaves in the output's staging buffer is
  rows `5000 t … 5000 t + 4999` of ONE whole-array function of the arrays the region found; the twenty blocks cover the
  output array, which therefore ends holding that function.
-/
import proofs.«166479_j61529701482519_1_alg».proof.Proof.KernelIdealFrame
import proofs.«166479_j61529701482519_1_alg».proof.Proof.Payloads

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Spec Cert.KernelIdeal.Pay

variable (V : (c : Dev nD) → (b : Ref sig .tc) → Buf (Elt Ideal) ((c : Thread nD τ).loc b))

/-! ## The first update (pallas_call 1): rows of `x` and of the aggregated messages in blocks of 5000, the two weight blocks and the bias whole -/

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 1000000 in
/-- What point `t` writes back is block `t` of the update of the arrays as the region finds them. -/
theorem flushed1 (c : Dev nD) (t : Fin cfg1.N) :
    (dat1 V c).flushed 5 t = ((cfg1.win 5).blk t).view.read (Elt Ideal)
      (upd (n := 100000) (ka := 256) (kb := 64) (m := 128) (V c main_arg0) (V c main_v24) (V c main_v25) (V c main_v26) (V c main_v27)) := by
  show (cfg1.win 5).cut (grid1.coords t) ((dat1 V c).after 5 t) = _
  rw [after1_5]
  unfold out1_5
  rw [View.canon_unit_zero hz]
  simp only [View.ld_unit_zero (S := S5000x256) hz, View.ld_unit_zero (S := S5000x64) hz, View.ld_unit_zero (S := S256x128) hz,
    View.ld_unit_zero (S := S64x128) hz, View.ld_unit_zero (S := S1x128) hz]
  rw [pay1]
  obtain ⟨e0, e1, e2, e3, e4, e5, e6, e7, e8, e9, e10, e11⟩ := idx1 t
  funext j
  show upd (n := 5000) (ka := 256) (kb := 64) (m := 128) (iblk1 V c 0 t) (iblk1 V c 1 t) (iblk1 V c 2 t) (iblk1 V c 3 t) (iblk1 V c 4 t) j
    = upd (n := 100000) (ka := 256) (kb := 64) (m := 128) (V c main_arg0) (V c main_v24) (V c main_v25) (V c main_v26) (V c main_v27)
        (((cfg1.win 5).blk t).view.emb j)
  have hj0 := idx2_lt0 j
  have hj1 := idx2_lt1 j
  refine upd_block (N := 100000) (n := 5000) (ka := 256) (kb := 64) (m := 128) (V c main_arg0) (V c main_v24) (V c main_v25) (V c main_v26) (V c main_v27)
    ((cfg1.win 0).blk t).view.emb ((cfg1.win 1).blk t).view.emb ((cfg1.win 2).blk t).view.emb ((cfg1.win 3).blk t).view.emb
    ((cfg1.win 4).blk t).view.emb j (((cfg1.win 5).blk t).view.emb j) (fun q => ?_) (fun q => ?_) (fun q => ?_) (fun q => ?_) ?_
  · funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 256 + 1 * q.val = q.val; omega
  · funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 64 + 1 * q.val = q.val; omega
  · funext a; apply Fin.ext
    match a with
    | ⟨0, _⟩ => show win1_2.index t (0 : Fin 2) * 256 + 1 * q.val = q.val; omega
    | ⟨1, _⟩ => show win1_2.index t (1 : Fin 2) * 128 + 1 * (j 1).val = win1_5.index t (1 : Fin 2) * 128 + 1 * (j 1).val; omega
  · funext a; apply Fin.ext
    match a with
    | ⟨0, _⟩ => show win1_3.index t (0 : Fin 2) * 64 + 1 * q.val = q.val; omega
    | ⟨1, _⟩ => show win1_3.index t (1 : Fin 2) * 128 + 1 * (j 1).val = win1_5.index t (1 : Fin 2) * 128 + 1 * (j 1).val; omega
  · funext a; apply Fin.ext
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v28).slice (win1_5.rect t)).set ↔ _
  rw [View.set_slice_whole, Rect.mem_set_unit]
  exact Iff.rfl

theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 5000, by show (i 0).val / 5000 < 20; omega⟩, flush1_5 _, ?_⟩
  rw [mem_blk1]
  obtain ⟨e0, e1, e2, e3, e4, e5, e6, e7, e8, e9, e10, e11⟩ := idx1 ⟨(i 0).val / 5000, by show (i 0).val / 5000 < 20; omega⟩
  intro a
  match a with
  | ⟨0, _⟩ => show win1_5.index _ (0 : Fin 2) * 5000 ≤ (i 0).val ∧ (i 0).val < win1_5.index _ (0 : Fin 2) * 5000 + 5000; rw [e10]; show (i 0).val / 5000 * 5000 ≤ _ ∧ _ < (i 0).val / 5000 * 5000 + 5000; omega
  | ⟨1, _⟩ => show win1_5.index _ (1 : Fin 2) * 128 ≤ (i 1).val ∧ (i 1).val < win1_5.index _ (1 : Fin 2) * 128 + 128; rw [e11]; omega

/-- The array the second pallas_call leaves: the update of the arrays it found. -/
theorem final1 (c : Dev nD) :
    (dat1 V c).arrAt 5 cfg1.N = upd (n := 100000) (ka := 256) (kb := 64) (m := 128) (V c main_arg0) (V c main_v24) (V c main_v25) (V c main_v26) (V c main_v27) :=
  (dat1 V c).arrAt_eq_of_cover 5 _ (fun t _ => flushed1 V c t) cover1

end Cert.KernelIdeal.Val

end
-- ==== Proof.Region2.lean ====
/-
  The array the third pallas_call leaves: the second layer's messages.

  The pallas_call walks the node rows in twenty blocks of 5000. At grid point `t` every row-indexed window sits at block
  row `t` and every other window (weights, bias) is fetched whole, so what the body leaves in the output's staging buffer is
  rows `5000 t … 5000 t + 4999` of ONE whole-array function of the arrays the region found; the twenty blocks cover the
  output array, which therefore ends holding that function.
-/
import proofs.«166479_j61529701482519_1_alg».proof.Proof.KernelIdealFrame
import proofs.«166479_j61529701482519_1_alg».proof.Proof.Payloads

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Spec Cert.KernelIdeal.Pay

variable (V : (c : Dev nD) → (b : Ref sig .tc) → Buf (Elt Ideal) ((c : Thread nD τ).loc b))

/-! ## The second dense layer (pallas_call 2): rows of the first layer's output in blocks of 5000 -/

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 1000000 in
theorem flushed2 (c : Dev nD) (t : Fin cfg2.N) :
    (dat2 V c).flushed 3 t = ((cfg2.win 3).blk t).view.read (Elt Ideal)
      (lin (n := 100000) (k := 128) (m := 64) (V c main_v28) (V c main_arg7) (V c main_v29)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x64) hz, View.ld_unit_zero (S := S1x64) hz]
  rw [pay2]
  obtain ⟨e0, e1, e2, e3, e4, e5, e6, e7⟩ := idx2 t
  funext j
  show lin (n := 5000) (k := 128) (m := 64) (iblk2 V c 0 t) (iblk2 V c 1 t) (iblk2 V c 2 t) j
    = lin (n := 100000) (k := 128) (m := 64) (V c main_v28) (V c main_arg7) (V c main_v29) (((cfg2.win 3).blk t).view.emb j)
  have hj0 := idx2_lt0 j
  have hj1 := idx2_lt1 j
  refine lin_block (N := 100000) (n := 5000) (k := 128) (m := 64) (V c main_v28) (V c main_arg7) (V c main_v29)
    ((cfg2.win 0).blk t).view.emb ((cfg2.win 1).blk t).view.emb ((cfg2.win 2).blk t).view.emb j (((cfg2.win 3).blk t).view.emb j)
    (fun q => ?_) (fun q => ?_) ?_
  · funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * q.val = q.val; omega
  · funext a; apply Fin.ext
    match a with
    | ⟨0, _⟩ => show win2_1.index t (0 : Fin 2) * 128 + 1 * q.val = q.val; omega
    | ⟨1, _⟩ => show win2_1.index t (1 : Fin 2) * 64 + 1 * (j 1).val = win2_3.index t (1 : Fin 2) * 64 + 1 * (j 1).val; omega
  · funext a; apply Fin.ext
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega

theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v30).slice (win2_3.rect t)).set ↔ _
  rw [View.set_slice_whole, Rect.mem_set_unit]
  exact Iff.rfl

theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  refine ⟨⟨(i 0).val / 5000, by show (i 0).val / 5000 < 20; omega⟩, flush2_3 _, ?_⟩
  rw [mem_blk2]
  obtain ⟨e0, e1, e2, e3, e4, e5, e6, e7⟩ := idx2 ⟨(i 0).val / 5000, by show (i 0).val / 5000 < 20; omega⟩
  intro a
  match a with
  | ⟨0, _⟩ => show win2_3.index _ (0 : Fin 2) * 5000 ≤ (i 0).val ∧ (i 0).val < win2_3.index _ (0 : Fin 2) * 5000 + 5000; rw [e6]; show (i 0).val / 5000 * 5000 ≤ _ ∧ _ < (i 0).val / 5000 * 5000 + 5000; omega
  | ⟨1, _⟩ => show win2_3.index _ (1 : Fin 2) * 64 ≤ (i 1).val ∧ (i 1).val < win2_3.index _ (1 : Fin 2) * 64 + 64; rw [e7]; omega

/-- The array the third pallas_call leaves: the second dense layer of the arrays it found. -/
theorem final2 (c : Dev nD) :
    (dat2 V c).arrAt 3 cfg2.N = lin (n := 100000) (k := 128) (m := 64) (V c main_v28) (V c main_arg7) (V c main_v29) :=
  (dat2 V c).arrAt_eq_of_cover 3 _ (fun t _ => flushed2 V c t) cover2

end Cert.KernelIdeal.Val

end
-- ==== Proof.Region3.lean ====
/-
  The array the fourth pallas_call leaves: the second layer's update.

  The pallas_call walks the node rows in twenty blocks of 5000. At grid point `t` every row-indexed window sits at block
  row `t` and every other window (weights, bias) is fetched whole, so what the body leaves in the output's staging buffer is
  rows `5000 t … 5000 t + 4999` of ONE whole-array function of the arrays the region found; the twenty blocks cover the
  output array, which therefore ends holding that function.
-/
import proofs.«166479_j61529701482519_1_alg».proof.Proof.KernelIdealFrame
import proofs.«166479_j61529701482519_1_alg».proof.Proof.Payloads

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Spec Cert.KernelIdeal.Pay

variable (V : (c : Dev nD) → (b : Ref sig .tc) → Buf (Elt Ideal) ((c : Thread nD τ).loc b))

/-! ## The second update (pallas_call 3) -/

theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 1000000 in
theorem flushed3 (c : Dev nD) (t : Fin cfg3.N) :
    (dat3 V c).flushed 5 t = ((cfg3.win 5).blk t).view.read (Elt Ideal)
      (upd (n := 100000) (ka := 128) (kb := 64) (m := 64) (V c main_v28) (V c main_v49) (V c main_v50) (V c main_v51) (V c main_v52)) := by
  show (cfg3.win 5).cut (grid3.coords t) ((dat3 V c).after 5 t) = _
  rw [after3_5]
  unfold out3_5
  rw [View.canon_unit_zero hz]
  simp only [View.ld_unit_zero (S := S5000x128) hz, View.ld_unit_zero (S := S5000x64) hz, View.ld_unit_zero (S := S128x64) hz,
    View.ld_unit_zero (S := S64x64) hz, View.ld_unit_zero (S := S1x64) hz]
  rw [pay3]
  obtain ⟨e0, e1, e2, e3, e4, e5, e6, e7, e8, e9, e10, e11⟩ := idx3 t
  funext j
  show upd (n := 5000) (ka := 128) (kb := 64) (m := 64) (iblk3 V c 0 t) (iblk3 V c 1 t) (iblk3 V c 2 t) (iblk3 V c 3 t) (iblk3 V c 4 t) j
    = upd (n := 100000) (ka := 128) (kb := 64) (m := 64) (V c main_v28) (V c main_v49) (V c main_v50) (V c main_v51) (V c main_v52)
        (((cfg3.win 5).blk t).view.emb j)
  have hj0 := idx2_lt0 j
  have hj1 := idx2_lt1 j
  refine upd_block (N := 100000) (n := 5000) (ka := 128) (kb := 64) (m := 64) (V c main_v28) (V c main_v49) (V c main_v50) (V c main_v51) (V c main_v52)
    ((cfg3.win 0).blk t).view.emb ((cfg3.win 1).blk t).view.emb ((cfg3.win 2).blk t).view.emb ((cfg3.win 3).blk t).view.emb
    ((cfg3.win 4).blk t).view.emb j (((cfg3.win 5).blk t).view.emb j) (fun q => ?_) (fun q => ?_) (fun q => ?_) (fun q => ?_) ?_
  · funext a; apply Fin.ext
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * q.val = q.val; omega
  · funext a; apply Fin.ext
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 64 + 1 * q.val = q.val; omega
  · funext a; apply Fin.ext
    match a with
    | ⟨0, _⟩ => show win3_2.index t (0 : Fin 2) * 128 + 1 * q.val = q.val; omega
    | ⟨1, _⟩ => show win3_2.index t (1 : Fin 2) * 64 + 1 * (j 1).val = win3_5.index t (1 : Fin 2) * 64 + 1 * (j 1).val; omega
  · funext a; apply Fin.ext
    match a with
    | ⟨0, _⟩ => show win3_3.index t (0 : Fin 2) * 64 + 1 * q.val = q.val; omega
    | ⟨1, _⟩ => show win3_3.index t (1 : Fin 2) * 64 + 1 * (j 1).val = win3_5.index t (1 : Fin 2) * 64 + 1 * (j 1).val; omega
  · funext a; apply Fin.ext
    match a with
    | ⟨0, _⟩ => show win3_4.index t (0 : Fin 2) * 1 + 1 * 0 = 0; omega
    | ⟨1, _⟩ => show win3_4.index t (1 : Fin 2) * 64 + 1 * (j 1).val = win3_5.index t (1 : Fin 2) * 64 + 1 * (j 1).val; omega

theorem mem_blk3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v53).slice (win3_5.rect t)).set ↔ _
  rw [View.set_slice_whole, Rect.mem_set_unit]
  exact Iff.rfl

theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  refine ⟨⟨(i 0).val / 5000, by show (i 0).val / 5000 < 20; omega⟩, flush3_5 _, ?_⟩
  rw [mem_blk3]
  obtain ⟨e0, e1, e2, e3, e4, e5, e6, e7, e8, e9, e10, e11⟩ := idx3 ⟨(i 0).val / 5000, by show (i 0).val / 5000 < 20; omega⟩
  intro a
  match a with
  | ⟨0, _⟩ => show win3_5.index _ (0 : Fin 2) * 5000 ≤ (i 0).val ∧ (i 0).val < win3_5.index _ (0 : Fin 2) * 5000 + 5000; rw [e10]; show (i 0).val / 5000 * 5000 ≤ _ ∧ _ < (i 0).val / 5000 * 5000 + 5000; omega
  | ⟨1, _⟩ => show win3_5.index _ (1 : Fin 2) * 64 ≤ (i 1).val ∧ (i 1).val < win3_5.index _ (1 : Fin 2) * 64 + 64; rw [e11]; omega

/-- The array the fourth pallas_call leaves: the second update of the arrays it found. -/
theorem final3 (c : Dev nD) :
    (dat3 V c).arrAt 5 cfg3.N = upd (n := 100000) (ka := 128) (kb := 64) (m := 64) (V c main_v28) (V c main_v49) (V c main_v50) (V c main_v51) (V c main_v52) :=
  (dat3 V c).arrAt_eq_of_cover 5 _ (fun t _ => flushed3 V c t) cover3

end Cert.KernelIdeal.Val

end
-- ==== Proof.Region4.lean ====
/-
  The array the last pallas_call leaves: the head.

  The pallas_call walks the node rows in twenty blocks of 5000. At grid point `t` every row-indexed window sits at block
  row `t` and every other window (weights, bias) is fetched whole, so what the body leaves in the output's staging buffer is
  rows `5000 t … 5000 t + 4999` of ONE whole-array function of the arrays the region found; the twenty blocks cover the
  output array, which therefore ends holding that function.
-/
import proofs.«166479_j61529701482519_1_alg».proof.Proof.KernelIdealFrame
import proofs.«166479_j61529701482519_1_alg».proof.Proof.Payloads

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Spec Cert.KernelIdeal.Pay

variable (V : (c : Dev nD) → (b : Ref sig .tc) → Buf (Elt Ideal) ((c : Thread nD τ).loc b))

/-! ## The head (pallas_call 4): a dense layer, the clamp, a dense layer to one column, on rows in blocks of 5000 -/

theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

set_option maxHeartbeats 1000000 in
theorem flushed4 (c : Dev nD) (t : Fin cfg4.N) :
    (dat4 V c).flushed 5 t = ((cfg4.win 5).blk t).view.read (Elt Ideal)
      (lin (n := 100000) (k := 32) (m := 1) (relu (lin (n := 100000) (k := 64) (m := 32) (V c main_v53) (V c main_arg11) (V c main_v54)))
        (V c main_arg13) (V c main_v55)) := by
  show (cfg4.win 5).cut (grid4.coords t) ((dat4 V c).after 5 t) = _
  rw [after4_5]
  unfold out4_5
  rw [View.canon_unit_zero hz]
  simp only [View.ld_unit_zero (S := S5000x64) hz, View.ld_unit_zero (S := S64x32) hz, View.ld_unit_zero (S := S1x32) hz,
    View.ld_unit_zero (S := S32x1) hz, View.ld_unit_zero (S := S1x1) hz]
  rw [pay4]
  obtain ⟨e0, e1, e2, e3, e4, e5, e6, e7, e8, e9, e10, e11⟩ := idx4 t
  funext j
  show lin (n := 5000) (k := 32) (m := 1) (relu (lin (n := 5000) (k := 64) (m := 32) (iblk4 V c 0 t) (iblk4 V c 1 t) (iblk4 V c 2 t)))
      (iblk4 V c 3 t) (iblk4 V c 4 t) j
    = lin (n := 100000) (k := 32) (m := 1) (relu (lin (n := 100000) (k := 64) (m := 32) (V c main_v53) (V c main_arg11) (V c main_v54)))
        (V c main_arg13) (V c main_v55) (((cfg4.win 5).blk t).view.emb j)
  have hj0 := idx2_lt0 j
  have hj1 := idx2_lt1 j
  refine head_block (N := 100000) (n := 5000) (k := 64) (h := 32) (m := 1) (V c main_v53) (V c main_arg11) (V c main_v54) (V c main_arg13) (V c main_v55)
    ((cfg4.win 0).blk t).view.emb ((cfg4.win 1).blk t).view.emb ((cfg4.win 2).blk t).view.emb ((cfg4.win 3).blk t).view.emb
    ((cfg4.win 4).blk t).view.emb j (((cfg4.win 5).blk t).view.emb j) (fun p => ?_) (fun y => ?_) (fun y => ?_) (fun q => ?_) ?_
  · funext a; apply Fin.ext
    match a with
    | ⟨0, _⟩ => show win4_0.index t (0 : Fin 2) * 5000 + 1 * (j 0).val = win4_5.index t (0 : Fin 2) * 5000 + 1 * (j 0).val; omega
    | ⟨1, _⟩ => show win4_0.index t (1 : Fin 2) * 64 + 1 * p.val = p.val; omega
  · funext a; apply Fin.ext
    match a with
    | ⟨0, _⟩ => show win4_1.index t (0 : Fin 2) * 64 + 1 * (y 0).val = (y 0).val; omega
    | ⟨1, _⟩ => show win4_1.index t (1 : Fin 2) * 32 + 1 * (y 1).val = (y 1).val; omega
  · funext a; apply Fin.ext
    match a with
    | ⟨0, _⟩ => show win4_2.index t (0 : Fin 2) * 1 + 1 * (y 0).val = (y 0).val; omega
    | ⟨1, _⟩ => show win4_2.index t (1 : Fin 2) * 32 + 1 * (y 1).val = (y 1).val; omega
  · funext a; apply Fin.ext
    match a with
    | ⟨0, _⟩ => show win4_3.index t (0 : Fin 2) * 32 + 1 * q.val = q.val; omega
    | ⟨1, _⟩ => show win4_3.index t (1 : Fin 2) * 1 + 1 * (j 1).val = win4_5.index t (1 : Fin 2) * 1 + 1 * (j 1).val; omega
  · funext a; apply Fin.ext
    match a with
    | ⟨0, _⟩ => show win4_4.index t (0 : Fin 2) * 1 + 1 * 0 = 0; omega
    | ⟨1, _⟩ => show win4_4.index t (1 : Fin 2) * 1 + 1 * (j 1).val = win4_5.index t (1 : Fin 2) * 1 + 1 * (j 1).val; omega

theorem mem_blk4 (t : Fin cfg4.N) (i : S100000x1.Idx) :
    i ∈ ((cfg4.win 5).blk t).view.set ↔ ∀ a : Fin 2, win4_5.index t a * S5000x1.size a ≤ (i a).val ∧ (i a).val < win4_5.index t a * S5000x1.size a + S5000x1.size a := by
  show i ∈ ((View.whole main_v56).slice (win4_5.rect t)).set ↔ _
  rw [View.set_slice_whole, Rect.mem_set_unit]
  exact Iff.rfl

theorem cover4 (i : S100000x1.Idx) : ∃ t : Fin cfg4.N, (cfg4.win 5).flush t = true ∧ i ∈ ((cfg4.win 5).blk t).view.set := by
  have hi0 : (i 0).val < 100000 := (i 0).isLt
  have hi1 : (i 1).val < 1 := (i 1).isLt
  refine ⟨⟨(i 0).val / 5000, by show (i 0).val / 5000 < 20; omega⟩, flush4_5 _, ?_⟩
  rw [mem_blk4]
  obtain ⟨e0, e1, e2, e3, e4, e5, e6, e7, e8, e9, e10, e11⟩ := idx4 ⟨(i 0).val / 5000, by show (i 0).val / 5000 < 20; omega⟩
  intro a
  match a with
  | ⟨0, _⟩ => show win4_5.index _ (0 : Fin 2) * 5000 ≤ (i 0).val ∧ (i 0).val < win4_5.index _ (0 : Fin 2) * 5000 + 5000; rw [e10]; show (i 0).val / 5000 * 5000 ≤ _ ∧ _ < (i 0).val / 5000 * 5000 + 5000; omega
  | ⟨1, _⟩ => show win4_5.index _ (1 : Fin 2) * 1 ≤ (i 1).val ∧ (i 1).val < win4_5.index _ (1 : Fin 2) * 1 + 1; rw [e11]; omega

/-- The array the last pallas_call leaves: the head of the arrays it found. -/
theorem final4 (c : Dev nD) :
    (dat4 V c).arrAt 5 cfg4.N = lin (n := 100000) (k := 32) (m := 1) (relu (lin (n := 100000) (k := 64) (m := 32) (V c main_v53) (V c main_arg11) (V c main_v54)))
      (V c main_arg13) (V c main_v55) :=
  (dat4 V c).arrAt_eq_of_cover 5 _ (fun t _ => flushed4 V c t) cover4

end Cert.KernelIdeal.Val

end
-- ==== Proof.Aggr.lean ====
/-
  The mean aggregation both programs apply on the host, as ONE function of the node features `h` and the edge list.

  From the 2 × E edge array: `srcOf` is its first row (the source node of each edge), `dstOf` its second (the
  destination). `aggr h src dst` gathers row `src[e]` of `h` for every edge `e` (a negative index counted from the end, as
  jnp indexing does), adds the gathered rows into row `dst[e]` of a zero array, counts the edges arriving at each node the same
  way (adding ones into a zero vector), and divides each node's sum by its count, the count raised to at least one.
  Nothing here is opened by the certificate: both programs apply exactly this chain, so it is carried whole.
-/
import proofs.«166479_j61529701482519_1_alg».proof.Proof.Gen.KernelIdeal

noncomputable section

namespace Cert.KernelIdeal

open Idealize.ShloMosaic
open Facts₀ Facts

variable {F : FTy → Type} [FloatOps F]

/-- The source node of each edge: row 0 of the edge array. -/
def srcOf (ei : IVec S2x3200000 32) : IVec S3200000 32 :=
  shapeCast S3200000 (extractStridedSlice S1x3200000 ![0, 0] ei slices_S2x3200000_S1x3200000_0_0) shapeCasts_S1x3200000_S3200000

/-- The destination node of each edge: row 1 of the edge array. -/
def dstOf (ei : IVec S2x3200000 32) : IVec S3200000 32 :=
  shapeCast S3200000 (extractStridedSlice S1x3200000 ![1, 0] ei slices_S2x3200000_S1x3200000_1_0) shapeCasts_S1x3200000_S3200000

/-- Each node's mean of the rows of `h` at the sources of the edges arriving at it. -/
def aggr (h : FVec F S100000x64 .f32) (src dst : IVec S3200000 32) : FVec F S100000x64 .f32 :=
  Host.divf
    (Host.scatterAdd scatter_S100000x64_S3200000x1_S3200000x64_1_0_0_1
      (broadcastInDim S100000x64 ![] bcast_S_S100000x64 (constant S_ .f32 0x00000000#32))
      (broadcastInDim S3200000x1 ![0] bcast_S3200000_S3200000x1_0 dst)
      (Host.gather gather_S100000x64_S3200000x1_S3200000x64_1_0_n_n_0_1_164 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src))))
    (broadcastInDim S100000x64 ![0, 1] bcast_S100000x1_S100000x64_0_1
      (broadcastInDim S100000x1 ![0] bcast_S100000_S100000x1_0
        (maximumf
          (Host.scatterAdd scatter_S100000_S3200000x1_S3200000_n_0_0_1
            (broadcastInDim S100000 ![] bcast_S_S100000 (constant S_ .f32 0x00000000#32))
            (broadcastInDim S3200000x1 ![0] bcast_S3200000_S3200000x1_0 dst)
            (broadcastInDim S3200000 ![] bcast_S_S3200000 (constant S_ .f32 0x3F800000#32)))
          (broadcastInDim S100000 ![] bcast_S_S100000 (constant S_ .f32 0x3F800000#32)))))

end Cert.KernelIdeal

end
-- ==== Proof.Net.lean ====
/-
  The whole network as ONE function of the argument arrays, over the extended reals: what both programs compute.

  With `src`, `dst` the two rows of the edge array and `aggr` the mean aggregation over the edges:
    h1  = x · W1a + b1a
    x1  = max(x · W1b[:256] + aggr(h1) · W1b[256:] + b1b, 0)
    h2  = x1 · W2a + b2a
    x2  = max(x1 · W2b[:128] + aggr(h2) · W2b[128:] + b2b, 0)
    out = max(x2 · Wl1 + bl1, 0) · Wl2 + bl2
  The weight blocks are the host's two slices of the stacked weight, a bias vector enters as the one-row matrix the host's reshape makes of it.
-/
import proofs.«166479_j61529701482519_1_alg».proof.Proof.Aggr
import proofs.«166479_j61529701482519_1_alg».proof.Proof.Spec

noncomputable section

namespace Cert.KernelIdeal.Net

open Idealize.ShloMosaic Cert.KernelIdeal Cert.Spec
open Facts₀ Facts

/-- A bias vector as a one-row matrix. -/
abbrev row64 (b : FVec Ideal S64 .f32) : Mat 1 64 := shapeCast S1x64 b shapeCasts_S64_S1x64
abbrev row128 (b : FVec Ideal S128 .f32) : Mat 1 128 := shapeCast S1x128 b shapeCasts_S128_S1x128
abbrev row32 (b : FVec Ideal S32 .f32) : Mat 1 32 := shapeCast S1x32 b shapeCasts_S32_S1x32
abbrev row1 (b : FVec Ideal S1 .f32) : Mat 1 1 := shapeCast S1x1 b shapeCasts_S1_S1x1

/-- The rows of the first stacked weight that meet the node's own features, and those that meet the aggregated messages. -/
abbrev top1 (w : FVec Ideal S320x128 .f32) : Mat 256 128 := extractStridedSlice S256x128 ![0, 0] w slices_S320x128_S256x128_0_0
abbrev bot1 (w : FVec Ideal S320x128 .f32) : Mat 64 128 := extractStridedSlice S64x128 ![256, 0] w slices_S320x128_S64x128_256_0
abbrev top2 (w : FVec Ideal S192x64 .f32) : Mat 128 64 := extractStridedSlice S128x64 ![0, 0] w slices_S192x64_S128x64_0_0
abbrev bot2 (w : FVec Ideal S192x64 .f32) : Mat 64 64 := extractStridedSlice S64x64 ![128, 0] w slices_S192x64_S64x64_128_0

/-- The first layer's messages. -/
def h1 (x : FVec Ideal S100000x256 .f32) (w1a : FVec Ideal S256x64 .f32) (b1a : FVec Ideal S64 .f32) : Mat 100000 64 :=
  lin (n := 100000) (k := 256) (m := 64) x w1a (row64 b1a)

/-- The first layer's output. -/
def x1 (x : FVec Ideal S100000x256 .f32) (ei : IVec S2x3200000 32) (w1a : FVec Ideal S256x64 .f32) (b1a : FVec Ideal S64 .f32)
    (w1b : FVec Ideal S320x128 .f32) (b1b : FVec Ideal S128 .f32) : Mat 100000 128 :=
  upd (n := 100000) (ka := 256) (kb := 64) (m := 128) x (aggr (F := Ideal) (h1 x w1a b1a) (srcOf ei) (dstOf ei)) (top1 w1b) (bot1 w1b) (row128 b1b)

/-- The second layer's messages, from the first layer's output `y`. -/
def h2 (y : Mat 100000 128) (w2a : FVec Ideal S128x64 .f32) (b2a : FVec Ideal S64 .f32) : Mat 100000 64 :=
  lin (n := 100000) (k := 128) (m := 64) y w2a (row64 b2a)

/-- The second layer's output, from the first layer's output `y`. -/
def x2 (y : Mat 100000 128) (ei : IVec S2x3200000 32) (w2a : FVec Ideal S128x64 .f32) (b2a : FVec Ideal S64 .f32)
    (w2b : FVec Ideal S192x64 .f32) (b2b : FVec Ideal S64 .f32) : Mat 100000 64 :=
  upd (n := 100000) (ka := 128) (kb := 64) (m := 64) y (aggr (F := Ideal) (h2 y w2a b2a) (srcOf ei) (dstOf ei)) (top2 w2b) (bot2 w2b) (row64 b2b)

/-- The head, from the second layer's output `z`. -/
def head (z : Mat 100000 64) (wl1 : FVec Ideal S64x32 .f32) (bl1 : FVec Ideal S32 .f32) (wl2 : FVec Ideal S32x1 .f32)
    (bl2 : FVec Ideal S1 .f32) : Mat 100000 1 :=
  lin (n := 100000) (k := 32) (m := 1) (relu (lin (n := 100000) (k := 64) (m := 32) z wl1 (row32 bl1))) wl2 (row1 bl2)

/-- The network. -/
def out (x : FVec Ideal S100000x256 .f32) (ei : IVec S2x3200000 32) (w1a : FVec Ideal S256x64 .f32) (b1a : FVec Ideal S64 .f32)
    (w1b : FVec Ideal S320x128 .f32) (b1b : FVec Ideal S128 .f32) (w2a : FVec Ideal S128x64 .f32) (b2a : FVec Ideal S64 .f32)
    (w2b : FVec Ideal S192x64 .f32) (b2b : FVec Ideal S64 .f32) (wl1 : FVec Ideal S64x32 .f32) (bl1 : FVec Ideal S32 .f32)
    (wl2 : FVec Ideal S32x1 .f32) (bl2 : FVec Ideal S1 .f32) : Mat 100000 1 :=
  head (x2 (x1 x ei w1a b1a w1b b1b) ei w2a b2a w2b b2b) wl1 bl1 wl2 bl2

end Cert.KernelIdeal.Net

end
-- ==== Proof.KernelValue.lean ====
/-
  The kernel program's result as a function of its arguments.

  @main alternates host stretches and pallas_calls. Walking its boundaries: a buffer no later operation or region writes
  holds what it held (the argument arrays, the two edge rows); each host stretch's results are its operations of what the
  boundary before it held (a bias reshaped to a row, a weight's two slices, the mean aggregation of the region output before it);
  each region's output array is the whole-array function of the arrays it found (Region0 … Region4). Composed, the result
  buffer after the last region is the network `Net.out` of the arguments as launched.
-/
import proofs.«166479_j61529701482519_1_alg».proof.Proof.Region0
import proofs.«166479_j61529701482519_1_alg».proof.Proof.Region1
import proofs.«166479_j61529701482519_1_alg».proof.Proof.Region2
import proofs.«166479_j61529701482519_1_alg».proof.Proof.Region3
import proofs.«166479_j61529701482519_1_alg».proof.Proof.Region4
import proofs.«166479_j61529701482519_1_alg».proof.Proof.Net
import proofs.«166479_j61529701482519_1_alg».proof.Proof.RunValue
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.GenP Cert.Spec Cert.KernelIdeal.Net
open Facts₀ Facts

variable (m : (ℓ : Loc nD τ sig) → Buf (Elt Ideal) ℓ) (ρ : Dev nD → PrngReg)

/-- No operation of the named host stretch writes the buffer in the goal. -/
local macro "not_written " ops:ident : tactic => `(tactic| (
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- A buffer the named host stretch does not write holds after it what it held before. -/
local macro "kept_through " ops:ident : tactic => `(tactic|
  exact StableHlo.after_of_forall_not_mem _ _ (List.forall_iff_forall_mem.mp (by not_written $ops)))

/-! ## Region 0's entry (after the first host stretch): the arguments as launched, the bias as a row, the edge rows -/

theorem W1_arg (c : Dev nD) (b : Ref sig .tc)
    (hb : b ∈ [main_arg0, main_arg3, main_arg5, main_arg6, main_arg7, main_arg8, main_arg9, main_arg10, main_arg11, main_arg12, main_arg13, main_arg14]) :
    W1 m ρ c (Proc.devRef .tc b) = m ((c : Thread nD τ).loc b) := by
  simp only [List.mem_cons, List.not_mem_nil, or_false] at hb
  rcases hb with rfl | rfl | rfl | rfl | rfl | rfl | rfl | rfl | rfl | rfl | rfl | rfl
  all_goals kept_through hostOps0

theorem W1_v4 (c : Dev nD) : W1 m ρ c (Proc.devRef .tc main_v4) = row64 (m ((c : Thread nD τ).loc main_arg4)) := by
  show StableHlo.after hostOps0 (W0 m ρ c) (Proc.devRef .tc main_v4) = _
  after_results
  rfl

theorem W1_v1 (c : Dev nD) : W1 m ρ c (Proc.devRef .tc main_v1) = srcOf (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstOf (m ((c : Thread nD τ).loc main_arg1)) := by
  show StableHlo.after hostOps0 (W0 m ρ c) (Proc.devRef .tc main_v3) = _
  after_results
  rfl

/-! ## What is carried unchanged from region 0's entry to each later boundary -/

theorem thru2 (c : Dev nD) (b : Ref sig .tc)
    (hb : b ∈ [main_arg5, main_arg6, main_arg7, main_arg8, main_arg9, main_arg10, main_arg11, main_arg12, main_arg13, main_arg14, main_v1, main_v3]) :
    W2 m ρ c (Proc.devRef .tc b) = W1 m ρ c (Proc.devRef .tc b) := by
  simp only [List.mem_cons, List.not_mem_nil, or_false] at hb
  rcases hb with rfl | rfl | rfl | rfl | rfl | rfl | rfl | rfl | rfl | rfl | rfl | rfl
  all_goals exact W2_of_ne m ρ c _ (by decide)

theorem thru3 (c : Dev nD) (b : Ref sig .tc)
    (hb : b ∈ [main_arg7, main_arg8, main_arg9, main_arg10, main_arg11, main_arg12, main_arg13, main_arg14, main_v1, main_v3]) :
    W3 m ρ c (Proc.devRef .tc b) = W1 m ρ c (Proc.devRef .tc b) := by
  simp only [List.mem_cons, List.not_mem_nil, or_false] at hb
  rcases hb with rfl | rfl | rfl | rfl | rfl | rfl | rfl | rfl | rfl | rfl
  all_goals exact Eq.trans (by kept_through hostOps1) (thru2 m ρ c _ (by decide))

theorem thru4 (c : Dev nD) (b : Ref sig .tc)
    (hb : b ∈ [main_arg7, main_arg8, main_arg9, main_arg10, main_arg11, main_arg12, main_arg13, main_arg14, main_v1, main_v3]) :
    W4 m ρ c (Proc.devRef .tc b) = W1 m ρ c (Proc.devRef .tc b) := by
  have h3 := thru3 m ρ c b hb
  simp only [List.mem_cons, List.not_mem_nil, or_false] at hb
  rcases hb with rfl | rfl | rfl | rfl | rfl | rfl | rfl | rfl | rfl | rfl
  all_goals exact (W4_of_ne m ρ c _ (by decide)).trans h3

theorem thru5 (c : Dev nD) (b : Ref sig .tc)
    (hb : b ∈ [main_arg7, main_arg9, main_arg10, main_arg11, main_arg12, main_arg13, main_arg14, main_v1, main_v3]) :
    W5 m ρ c (Proc.devRef .tc b) = W1 m ρ c (Proc.devRef .tc b) := by
  simp only [List.mem_cons, List.not_mem_nil, or_false] at hb
  rcases hb with rfl | rfl | rfl | rfl | rfl | rfl | rfl | rfl | rfl
  all_goals exact Eq.trans (by kept_through hostOps2) (thru4 m ρ c _ (by decide))

theorem thru6 (c : Dev nD) (b : Ref sig .tc)
    (hb : b ∈ [main_arg9, main_arg10, main_arg11, main_arg12, main_arg13, main_arg14, main_v1, main_v3]) :
    W6 m ρ c (Proc.devRef .tc b) = W1 m ρ c (Proc.devRef .tc b) := by
  simp only [List.mem_cons, List.not_mem_nil, or_false] at hb
  rcases hb with rfl | rfl | rfl | rfl | rfl | rfl | rfl | rfl
  all_goals exact (W6_of_ne m ρ c _ (by decide)).trans (thru5 m ρ c _ (by decide))

theorem thru7 (c : Dev nD) (b : Ref sig .tc) (hb : b ∈ [main_arg11, main_arg12, main_arg13, main_arg14]) :
    W7 m ρ c (Proc.devRef .tc b) = W1 m ρ c (Proc.devRef .tc b) := by
  simp only [List.mem_cons, List.not_mem_nil, or_false] at hb
  rcases hb with rfl | rfl | rfl | rfl
  all_goals exact Eq.trans (by kept_through hostOps3) (thru6 m ρ c _ (by decide))

theorem thru8 (c : Dev nD) (b : Ref sig .tc) (hb : b ∈ [main_arg11, main_arg12, main_arg13, main_arg14]) :
    W8 m ρ c (Proc.devRef .tc b) = W1 m ρ c (Proc.devRef .tc b) := by
  simp only [List.mem_cons, List.not_mem_nil, or_false] at hb
  rcases hb with rfl | rfl | rfl | rfl
  all_goals exact (W8_of_ne m ρ c _ (by decide)).trans (thru7 m ρ c _ (by decide))

theorem thru9 (c : Dev nD) (b : Ref sig .tc) (hb : b ∈ [main_arg11, main_arg13]) :
    W9 m ρ c (Proc.devRef .tc b) = W1 m ρ c (Proc.devRef .tc b) := by
  simp only [List.mem_cons, List.not_mem_nil, or_false] at hb
  rcases hb with rfl | rfl
  all_goals exact Eq.trans (by kept_through hostOps4) (thru8 m ρ c _ (by decide))

/-! ## The first layer -/

/-- Region 0 leaves the first layer's messages. -/
theorem W2_v5 (c : Dev nD) : W2 m ρ c (Proc.devRef .tc main_v5)
    = h1 (m ((c : Thread nD τ).loc main_arg0)) (m ((c : Thread nD τ).loc main_arg3)) (m ((c : Thread nD τ).loc main_arg4)) := by
  refine (W2_arr m ρ c 3).trans ((final0 (V1 m ρ) c).trans ?_)
  show lin (n := 100000) (k := 256) (m := 64) (W1 m ρ c (Proc.devRef .tc main_arg0)) (W1 m ρ c (Proc.devRef .tc main_arg3)) (W1 m ρ c (Proc.devRef .tc main_v4)) = _
  rw [W1_arg m ρ c main_arg0 (by decide), W1_arg m ρ c main_arg3 (by decide), W1_v4]
  rfl

/-- `x` reaches region 1 as launched: region 0 only reads it. -/
theorem W3_arg0 (c : Dev nD) : W3 m ρ c (Proc.devRef .tc main_arg0) = m ((c : Thread nD τ).loc main_arg0) :=
  Eq.trans (by kept_through hostOps1)
    ((W2_arr m ρ c 0).trans (((dat0 (V1 m ρ) c).arrAt_in 0 rfl _).trans ((A_eq0 (V1 m ρ) c 0).trans (W1_arg m ρ c main_arg0 (by decide)))))

set_option maxHeartbeats 8000000 in
/-- The second host stretch's aggregation: the mean over the edges of region 0's output. -/
theorem W3_v24 (c : Dev nD) : W3 m ρ c (Proc.devRef .tc main_v24)
    = aggr (F := Ideal) (W2 m ρ c (Proc.devRef .tc main_v5)) (W2 m ρ c (Proc.devRef .tc main_v1)) (W2 m ρ c (Proc.devRef .tc main_v3)) := by
  show StableHlo.after hostOps1 (W2 m ρ c) (Proc.devRef .tc main_v24) = _
  after_results
  rfl

set_option maxHeartbeats 2000000 in
theorem W3_v25 (c : Dev nD) : W3 m ρ c (Proc.devRef .tc main_v25) = top1 (m ((c : Thread nD τ).loc main_arg5)) := by
  show StableHlo.after hostOps1 (W2 m ρ c) (Proc.devRef .tc main_v25) = _
  after_results
  rw [thru2 m ρ c main_arg5 (by decide), W1_arg m ρ c main_arg5 (by decide)]

set_option maxHeartbeats 2000000 in
theorem W3_v26 (c : Dev nD) : W3 m ρ c (Proc.devRef .tc main_v26) = bot1 (m ((c : Thread nD τ).loc main_arg5)) := by
  show StableHlo.after hostOps1 (W2 m ρ c) (Proc.devRef .tc main_v26) = _
  after_results
  rw [thru2 m ρ c main_arg5 (by decide), W1_arg m ρ c main_arg5 (by decide)]

set_option maxHeartbeats 2000000 in
theorem W3_v27 (c : Dev nD) : W3 m ρ c (Proc.devRef .tc main_v27) = row128 (m ((c : Thread nD τ).loc main_arg6)) := by
  show StableHlo.after hostOps1 (W2 m ρ c) (Proc.devRef .tc main_v27) = _
  after_results
  rw [thru2 m ρ c main_arg6 (by decide), W1_arg m ρ c main_arg6 (by decide)]
  rfl

/-- Region 1 leaves the first layer's output. -/
theorem W4_v28 (c : Dev nD) : W4 m ρ c (Proc.devRef .tc main_v28)
    = x1 (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  refine (W4_arr m ρ c 5).trans ((final1 (V3 m ρ) c).trans ?_)
  show upd (n := 100000) (ka := 256) (kb := 64) (m := 128) (W3 m ρ c (Proc.devRef .tc main_arg0)) (W3 m ρ c (Proc.devRef .tc main_v24))
    (W3 m ρ c (Proc.devRef .tc main_v25)) (W3 m ρ c (Proc.devRef .tc main_v26)) (W3 m ρ c (Proc.devRef .tc main_v27)) = _
  rw [W3_arg0, W3_v24, W3_v25, W3_v26, W3_v27, W2_v5, thru2 m ρ c main_v1 (by decide), thru2 m ρ c main_v3 (by decide), W1_v1, W1_v3]
  rfl

/-! ## The second layer -/

theorem W5_v28 (c : Dev nD) : W5 m ρ c (Proc.devRef .tc main_v28) = W4 m ρ c (Proc.devRef .tc main_v28) := by
  kept_through hostOps2

theorem W5_v29 (c : Dev nD) : W5 m ρ c (Proc.devRef .tc main_v29) = row64 (m ((c : Thread nD τ).loc main_arg8)) := by
  show StableHlo.after hostOps2 (W4 m ρ c) (Proc.devRef .tc main_v29) = _
  after_results
  rw [thru4 m ρ c main_arg8 (by decide), W1_arg m ρ c main_arg8 (by decide)]
  rfl

/-- Region 2 leaves the second layer's messages, of region 1's output `y`. -/
theorem W6_v30 (c : Dev nD) : W6 m ρ c (Proc.devRef .tc main_v30)
    = h2 (W4 m ρ c (Proc.devRef .tc main_v28)) (m ((c : Thread nD τ).loc main_arg7)) (m ((c : Thread nD τ).loc main_arg8)) := by
  refine (W6_arr m ρ c 3).trans ((final2 (V5 m ρ) c).trans ?_)
  show lin (n := 100000) (k := 128) (m := 64) (W5 m ρ c (Proc.devRef .tc main_v28)) (W5 m ρ c (Proc.devRef .tc main_arg7)) (W5 m ρ c (Proc.devRef .tc main_v29)) = _
  rw [W5_v28, thru5 m ρ c main_arg7 (by decide), W1_arg m ρ c main_arg7 (by decide), W5_v29]
  rfl

/-- Region 1's output reaches region 3 unchanged: region 2 only reads it. -/
theorem W7_v28 (c : Dev nD) : W7 m ρ c (Proc.devRef .tc main_v28) = W4 m ρ c (Proc.devRef .tc main_v28) :=
  Eq.trans (by kept_through hostOps3)
    ((W6_arr m ρ c 0).trans (((dat2 (V5 m ρ) c).arrAt_in 0 rfl _).trans ((A_eq2 (V5 m ρ) c 0).trans (W5_v28 m ρ c))))

set_option maxHeartbeats 8000000 in
theorem W7_v49 (c : Dev nD) : W7 m ρ c (Proc.devRef .tc main_v49)
    = aggr (F := Ideal) (W6 m ρ c (Proc.devRef .tc main_v30)) (W6 m ρ c (Proc.devRef .tc main_v1)) (W6 m ρ c (Proc.devRef .tc main_v3)) := by
  show StableHlo.after hostOps3 (W6 m ρ c) (Proc.devRef .tc main_v49) = _
  after_results
  rfl

set_option maxHeartbeats 2000000 in
theorem W7_v50 (c : Dev nD) : W7 m ρ c (Proc.devRef .tc main_v50) = top2 (m ((c : Thread nD τ).loc main_arg9)) := by
  show StableHlo.after hostOps3 (W6 m ρ c) (Proc.devRef .tc main_v50) = _
  after_results
  rw [thru6 m ρ c main_arg9 (by decide), W1_arg m ρ c main_arg9 (by decide)]

set_option maxHeartbeats 2000000 in
theorem W7_v51 (c : Dev nD) : W7 m ρ c (Proc.devRef .tc main_v51) = bot2 (m ((c : Thread nD τ).loc main_arg9)) := by
  show StableHlo.after hostOps3 (W6 m ρ c) (Proc.devRef .tc main_v51) = _
  after_results
  rw [thru6 m ρ c main_arg9 (by decide), W1_arg m ρ c main_arg9 (by decide)]

set_option maxHeartbeats 2000000 in
theorem W7_v52 (c : Dev nD) : W7 m ρ c (Proc.devRef .tc main_v52) = row64 (m ((c : Thread nD τ).loc main_arg10)) := by
  show StableHlo.after hostOps3 (W6 m ρ c) (Proc.devRef .tc main_v52) = _
  after_results
  rw [thru6 m ρ c main_arg10 (by decide), W1_arg m ρ c main_arg10 (by decide)]
  rfl

/-- Region 3 leaves the second layer's output, of region 1's output `y`. -/
theorem W8_v53 (c : Dev nD) : W8 m ρ c (Proc.devRef .tc main_v53)
    = x2 (W4 m ρ c (Proc.devRef .tc main_v28)) (m ((c : Thread nD τ).loc main_arg1)) (m ((c : Thread nD τ).loc main_arg7))
        (m ((c : Thread nD τ).loc main_arg8)) (m ((c : Thread nD τ).loc main_arg9)) (m ((c : Thread nD τ).loc main_arg10)) := by
  refine (W8_arr m ρ c 5).trans ((final3 (V7 m ρ) c).trans ?_)
  show upd (n := 100000) (ka := 128) (kb := 64) (m := 64) (W7 m ρ c (Proc.devRef .tc main_v28)) (W7 m ρ c (Proc.devRef .tc main_v49))
    (W7 m ρ c (Proc.devRef .tc main_v50)) (W7 m ρ c (Proc.devRef .tc main_v51)) (W7 m ρ c (Proc.devRef .tc main_v52)) = _
  rw [W7_v28, W7_v49, W7_v50, W7_v51, W7_v52, W6_v30, thru6 m ρ c main_v1 (by decide), thru6 m ρ c main_v3 (by decide), W1_v1, W1_v3]
  rfl

/-! ## The head -/

theorem W9_v53 (c : Dev nD) : W9 m ρ c (Proc.devRef .tc main_v53) = W8 m ρ c (Proc.devRef .tc main_v53) := by
  kept_through hostOps4

theorem W9_v54 (c : Dev nD) : W9 m ρ c (Proc.devRef .tc main_v54) = row32 (m ((c : Thread nD τ).loc main_arg12)) := by
  show StableHlo.after hostOps4 (W8 m ρ c) (Proc.devRef .tc main_v54) = _
  after_results
  rw [thru8 m ρ c main_arg12 (by decide), W1_arg m ρ c main_arg12 (by decide)]
  rfl

theorem W9_v55 (c : Dev nD) : W9 m ρ c (Proc.devRef .tc main_v55) = row1 (m ((c : Thread nD τ).loc main_arg14)) := by
  show StableHlo.after hostOps4 (W8 m ρ c) (Proc.devRef .tc main_v55) = _
  after_results
  rw [thru8 m ρ c main_arg14 (by decide), W1_arg m ρ c main_arg14 (by decide)]
  rfl

/-- THE RESULT: after the last region the result buffer holds the network of the arguments as launched. -/
theorem W10_v56 (c : Dev nD) : W10 m ρ c (Proc.devRef .tc main_v56)
    = out (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12))
        (m ((c : Thread nD τ).loc main_arg13)) (m ((c : Thread nD τ).loc main_arg14)) := by
  refine (W10_arr m ρ c 5).trans ((final4 (V9 m ρ) c).trans ?_)
  show lin (n := 100000) (k := 32) (m := 1) (relu (lin (n := 100000) (k := 64) (m := 32) (W9 m ρ c (Proc.devRef .tc main_v53))
      (W9 m ρ c (Proc.devRef .tc main_arg11)) (W9 m ρ c (Proc.devRef .tc main_v54)))) (W9 m ρ c (Proc.devRef .tc main_arg13))
      (W9 m ρ c (Proc.devRef .tc main_v55)) = _
  rw [W9_v53, W8_v53, W4_v28, thru9 m ρ c main_arg11 (by decide), W1_arg m ρ c main_arg11 (by decide), W9_v54,
    thru9 m ρ c main_arg13 (by decide), W1_arg m ρ c main_arg13 (by decide), W9_v55]
  rfl

/-- THE KERNEL PROGRAM'S RUN: every weakly fair execution terminates, nothing faulting, with the result buffer at the network of
    the arguments and the arguments unchanged. -/
theorem run : θ_run defs (onTc (τ := τ) (main (F := Ideal))) ⟨m, fun _ => 0, ρ⟩ (fun r => ∀ c : Dev nD,
      r.2.mem ((c.tc : Thread nD τ).loc main_v56)
        = out (m ((c.tc : Thread nD τ).loc main_arg0)) (m ((c.tc : Thread nD τ).loc main_arg1)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12))
            (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (W10_v56 m ρ c), (h c).2⟩) (Cert.KernelIdeal.RunValue.run_v56 m ρ)

end Cert.KernelIdeal.Val

end
-- ==== Proof.RefValue.lean ====
/-
  The reference program's stages are the network's.

  Each dense layer of the reference is a host contraction plus a bias broadcast down the rows: read at an entry it is
  the row-against-column sum plus the bias entry, which is `lin`. Each graph-convolution layer of the reference
  contracts the features and the aggregated messages SET SIDE BY SIDE against the stacked weight; the join law of the
  specification (a sum over 256 + 64, resp. 128 + 64, columns splits) turns it into the kernel's form, two contractions
  against the weight's upper and lower rows. The aggregation chain is the same composition of host operations in both programs.
-/
import proofs.«166479_j61529701482519_1_alg».proof.Proof.Gen.ReferenceIdeal.Read
import proofs.«166479_j61529701482519_1_alg».proof.Proof.Net

noncomputable section

namespace Cert.ReferenceIdeal.RefValue

open Idealize.ShloMosaic Idealize.ShloMosaic.ValueIdx Cert.Spec
open Cert.ReferenceIdeal Cert.ReferenceIdeal.Gen Cert.ReferenceIdeal.Read
open Cert.KernelIdeal (aggr srcOf dstOf)
open Cert.KernelIdeal.Net (h1 h2 head out row64 row128 row32 row1 top1 bot1 top2 bot2)

variable (x0 : (⟨S100000x256, .f32⟩ : BufTy).Contents (Elt Ideal)) (x1 : (⟨S2x3200000, .i32⟩ : BufTy).Contents (Elt Ideal))
  (x3 : (⟨S256x64, .f32⟩ : BufTy).Contents (Elt Ideal)) (x4 : (⟨S64, .f32⟩ : BufTy).Contents (Elt Ideal))
  (x5 : (⟨S320x128, .f32⟩ : BufTy).Contents (Elt Ideal)) (x6 : (⟨S128, .f32⟩ : BufTy).Contents (Elt Ideal))
  (x7 : (⟨S128x64, .f32⟩ : BufTy).Contents (Elt Ideal)) (x8 : (⟨S64, .f32⟩ : BufTy).Contents (Elt Ideal))
  (x9 : (⟨S192x64, .f32⟩ : BufTy).Contents (Elt Ideal)) (x10 : (⟨S64, .f32⟩ : BufTy).Contents (Elt Ideal))
  (x11 : (⟨S64x32, .f32⟩ : BufTy).Contents (Elt Ideal)) (x12 : (⟨S32, .f32⟩ : BufTy).Contents (Elt Ideal))
  (x13 : (⟨S32x1, .f32⟩ : BufTy).Contents (Elt Ideal)) (x14 : (⟨S1, .f32⟩ : BufTy).Contents (Elt Ideal))

/-! ## The first layer -/

/-- `x · W1a + b1a`. -/
theorem s7 : val_main_v7 (F := Ideal) x0 x3 x4 = h1 x0 x3 x4 := by
  funext i
  obtain ⟨r, c, rfl⟩ : ∃ (r : Fin 100000) (c : Fin 64), i = ix2 r c := ⟨i 0, i 1, eq_ix2 i⟩
  rw [val_main_v7_apply, val_main_v4_apply, val_main_v6_apply, val_main_v5_apply]
  have e1 : ∀ k : Fin 256, lidx_main_v4 (ix2 r c) k = ix2 r k := fun k => funext fun a => by
    match a with | ⟨0, _⟩ => rfl | ⟨1, _⟩ => rfl
  have e2 : ∀ k : Fin 256, ridx_main_v4 (ix2 r c) k = ix2 k c := fun k => funext fun a => by
    match a with | ⟨0, _⟩ => rfl | ⟨1, _⟩ => rfl
  have e3 : idx_main_v5 (idx_main_v6 (ix2 r c)) = ix1 c := funext fun a => by
    match a with | ⟨0, _⟩ => rfl
  show (∑ k : Fin 256, x0 (lidx_main_v4 (ix2 r c) k) * x3 (ridx_main_v4 (ix2 r c) k)) + x4 (idx_main_v5 (idx_main_v6 (ix2 r c)))
    = (∑ k : Fin 256, x0 (ix2 r k) * x3 (ix2 k c)) + row64 x4 (ix2 ⟨0, Nat.one_pos⟩ c)
  rw [show row64 x4 (ix2 ⟨0, Nat.one_pos⟩ c) = x4 (ix1 c) from row_apply (m := 64) x4 _ c]
  simp only [e1, e2, e3]

/-- The aggregation of the first layer's messages: the same host chain. -/
theorem s26 : val_main_v26 (F := Ideal) x0 x1 x3 x4 = aggr (F := Ideal) (val_main_v7 (F := Ideal) x0 x3 x4) (srcOf x1) (dstOf x1) := rfl

/-- The reference's first update, read as one dense layer on the features set side by side, clamped. -/
theorem s32_cat : val_main_v32 (F := Ideal) x0 x1 x3 x4 x5 x6
    = relu (lin (n := 100000) (k := 320) (m := 128) (val_main_v27 (F := Ideal) x0 x1 x3 x4) x5 (row128 x6)) := by
  funext i
  obtain ⟨r, c, rfl⟩ : ∃ (r : Fin 100000) (c : Fin 128), i = ix2 r c := ⟨i 0, i 1, eq_ix2 i⟩
  rw [val_main_v32_apply, val_main_v31_apply, val_main_v28_apply, val_main_v30_apply, val_main_v29_apply, val_main_call0_v0_apply,
    val_main_call0_cst_apply]
  have e1 : ∀ k : Fin 320, lidx_main_v28 (ix2 r c) k = ix2 r k := fun k => funext fun a => by
    match a with | ⟨0, _⟩ => rfl | ⟨1, _⟩ => rfl
  have e2 : ∀ k : Fin 320, ridx_main_v28 (ix2 r c) k = ix2 k c := fun k => funext fun a => by
    match a with | ⟨0, _⟩ => rfl | ⟨1, _⟩ => rfl
  have e3 : idx_main_v29 (idx_main_v30 (ix2 r c)) = ix1 c := funext fun a => by
    match a with | ⟨0, _⟩ => rfl
  show max ((∑ k : Fin 320, val_main_v27 (F := Ideal) x0 x1 x3 x4 (lidx_main_v28 (ix2 r c) k) * x5 (ridx_main_v28 (ix2 r c) k))
      + x6 (idx_main_v29 (idx_main_v30 (ix2 r c)))) zeroWord
    = max ((∑ k : Fin 320, val_main_v27 (F := Ideal) x0 x1 x3 x4 (ix2 r k) * x5 (ix2 k c)) + row128 x6 (ix2 ⟨0, Nat.one_pos⟩ c)) zeroWord
  rw [show row128 x6 (ix2 ⟨0, Nat.one_pos⟩ c) = x6 (ix1 c) from row_apply (m := 128) x6 _ c]
  simp only [e1, e2, e3]

/-- The first layer's output. -/
theorem s32 : val_main_v32 (F := Ideal) x0 x1 x3 x4 x5 x6 = Cert.KernelIdeal.Net.x1 x0 x1 x3 x4 x5 x6 := by
  rw [s32_cat]
  unfold Cert.KernelIdeal.Net.x1
  rw [← s7 x0 x3 x4, ← s26 x0 x1 x3 x4]
  refine (upd_eq_relu_lin (n := 100000) (ka := 256) (kb := 64) (m := 128) x0 (val_main_v26 (F := Ideal) x0 x1 x3 x4)
    (val_main_v27 (F := Ideal) x0 x1 x3 x4) x5 (top1 x5) (bot1 x5) (row128 x6) (fun r j => ?_) (fun r j => ?_) (fun j c => ?_) (fun j c => ?_)).symm
  · unfold val_main_v27
    refine concatenate_pair_apply_left (1 : Fin 2) x0 _ _ (ix2 r (Fin.castAdd 64 j)) rfl (ix2 r j : S100000x256.Idx) (fun b => ?_)
    match b with | ⟨0, _⟩ => rfl | ⟨1, _⟩ => rfl
  · unfold val_main_v27
    refine concatenate_pair_apply_right (1 : Fin 2) x0 (val_main_v26 (F := Ideal) x0 x1 x3 x4) _ (ix2 r (Fin.natAdd 256 j)) rfl rfl
      (ix2 r j : S100000x64.Idx) (fun b hb => ?_) ?_
    · match b with
      | ⟨0, _⟩ => rfl
      | ⟨1, _⟩ => exact absurd rfl hb
    · show j.val + 256 = 256 + j.val; omega
  · exact top_apply (ka := 256) (kb := 64) (m := 128) x5 _ j c
  · exact bot_apply (ka := 256) (kb := 64) (m := 128) x5 _ j c

/-! ## The second layer -/

theorem s36 : val_main_v36 (F := Ideal) x0 x1 x3 x4 x5 x6 x7 x8 = h2 (val_main_v32 (F := Ideal) x0 x1 x3 x4 x5 x6) x7 x8 := by
  funext i
  obtain ⟨r, c, rfl⟩ : ∃ (r : Fin 100000) (c : Fin 64), i = ix2 r c := ⟨i 0, i 1, eq_ix2 i⟩
  rw [val_main_v36_apply, val_main_v33_apply, val_main_v35_apply, val_main_v34_apply]
  have e1 : ∀ k : Fin 128, lidx_main_v33 (ix2 r c) k = ix2 r k := fun k => funext fun a => by
    match a with | ⟨0, _⟩ => rfl | ⟨1, _⟩ => rfl
  have e2 : ∀ k : Fin 128, ridx_main_v33 (ix2 r c) k = ix2 k c := fun k => funext fun a => by
    match a with | ⟨0, _⟩ => rfl | ⟨1, _⟩ => rfl
  have e3 : idx_main_v34 (idx_main_v35 (ix2 r c)) = ix1 c := funext fun a => by
    match a with | ⟨0, _⟩ => rfl
  show (∑ k : Fin 128, val_main_v32 (F := Ideal) x0 x1 x3 x4 x5 x6 (lidx_main_v33 (ix2 r c) k) * x7 (ridx_main_v33 (ix2 r c) k))
      + x8 (idx_main_v34 (idx_main_v35 (ix2 r c)))
    = (∑ k : Fin 128, val_main_v32 (F := Ideal) x0 x1 x3 x4 x5 x6 (ix2 r k) * x7 (ix2 k c)) + row64 x8 (ix2 ⟨0, Nat.one_pos⟩ c)
  rw [show row64 x8 (ix2 ⟨0, Nat.one_pos⟩ c) = x8 (ix1 c) from row_apply (m := 64) x8 _ c]
  simp only [e1, e2, e3]

theorem s55 : val_main_v55 (F := Ideal) x0 x1 x3 x4 x5 x6 x7 x8 = aggr (F := Ideal) (val_main_v36 (F := Ideal) x0 x1 x3 x4 x5 x6 x7 x8) (srcOf x1) (dstOf x1) := rfl

theorem s61_cat : val_main_v61 (F := Ideal) x0 x1 x3 x4 x5 x6 x7 x8 x9 x10
    = relu (lin (n := 100000) (k := 192) (m := 64) (val_main_v56 (F := Ideal) x0 x1 x3 x4 x5 x6 x7 x8) x9 (row64 x10)) := by
  funext i
  obtain ⟨r, c, rfl⟩ : ∃ (r : Fin 100000) (c : Fin 64), i = ix2 r c := ⟨i 0, i 1, eq_ix2 i⟩
  rw [val_main_v61_apply, val_main_v60_apply, val_main_v57_apply, val_main_v59_apply, val_main_v58_apply, val_main_call1_v0_apply,
    val_main_call1_cst_apply]
  have e1 : ∀ k : Fin 192, lidx_main_v57 (ix2 r c) k = ix2 r k := fun k => funext fun a => by
    match a with | ⟨0, _⟩ => rfl | ⟨1, _⟩ => rfl
  have e2 : ∀ k : Fin 192, ridx_main_v57 (ix2 r c) k = ix2 k c := fun k => funext fun a => by
    match a with | ⟨0, _⟩ => rfl | ⟨1, _⟩ => rfl
  have e3 : idx_main_v58 (idx_main_v59 (ix2 r c)) = ix1 c := funext fun a => by
    match a with | ⟨0, _⟩ => rfl
  show max ((∑ k : Fin 192, val_main_v56 (F := Ideal) x0 x1 x3 x4 x5 x6 x7 x8 (lidx_main_v57 (ix2 r c) k) * x9 (ridx_main_v57 (ix2 r c) k))
      + x10 (idx_main_v58 (idx_main_v59 (ix2 r c)))) zeroWord
    = max ((∑ k : Fin 192, val_main_v56 (F := Ideal) x0 x1 x3 x4 x5 x6 x7 x8 (ix2 r k) * x9 (ix2 k c)) + row64 x10 (ix2 ⟨0, Nat.one_pos⟩ c)) zeroWord
  rw [show row64 x10 (ix2 ⟨0, Nat.one_pos⟩ c) = x10 (ix1 c) from row_apply (m := 64) x10 _ c]
  simp only [e1, e2, e3]

/-- The second layer's output, of the first layer's. -/
theorem s61 : val_main_v61 (F := Ideal) x0 x1 x3 x4 x5 x6 x7 x8 x9 x10 = Cert.KernelIdeal.Net.x2 (val_main_v32 (F := Ideal) x0 x1 x3 x4 x5 x6) x1 x7 x8 x9 x10 := by
  rw [s61_cat]
  unfold Cert.KernelIdeal.Net.x2
  rw [← s36 x0 x1 x3 x4 x5 x6 x7 x8, ← s55 x0 x1 x3 x4 x5 x6 x7 x8]
  refine (upd_eq_relu_lin (n := 100000) (ka := 128) (kb := 64) (m := 64) (val_main_v32 (F := Ideal) x0 x1 x3 x4 x5 x6)
    (val_main_v55 (F := Ideal) x0 x1 x3 x4 x5 x6 x7 x8) (val_main_v56 (F := Ideal) x0 x1 x3 x4 x5 x6 x7 x8) x9 (top2 x9) (bot2 x9) (row64 x10)
    (fun r j => ?_) (fun r j => ?_) (fun j c => ?_) (fun j c => ?_)).symm
  · unfold val_main_v56
    refine concatenate_pair_apply_left (1 : Fin 2) (val_main_v32 (F := Ideal) x0 x1 x3 x4 x5 x6) _ _ (ix2 r (Fin.castAdd 64 j)) rfl
      (ix2 r j : S100000x128.Idx) (fun b => ?_)
    match b with | ⟨0, _⟩ => rfl | ⟨1, _⟩ => rfl
  · unfold val_main_v56
    refine concatenate_pair_apply_right (1 : Fin 2) (val_main_v32 (F := Ideal) x0 x1 x3 x4 x5 x6) (val_main_v55 (F := Ideal) x0 x1 x3 x4 x5 x6 x7 x8) _
      (ix2 r (Fin.natAdd 128 j)) rfl rfl (ix2 r j : S100000x64.Idx) (fun b hb => ?_) ?_
    · match b with
      | ⟨0, _⟩ => rfl
      | ⟨1, _⟩ => exact absurd rfl hb
    · show j.val + 128 = 128 + j.val; omega
  · exact top_apply (ka := 128) (kb := 64) (m := 64) x9 _ j c
  · exact bot_apply (ka := 128) (kb := 64) (m := 64) x9 _ j c

/-! ## The head -/

theorem s66 : val_main_v66 (F := Ideal) x0 x1 x3 x4 x5 x6 x7 x8 x9 x10 x11 x12
    = relu (lin (n := 100000) (k := 64) (m := 32) (val_main_v61 (F := Ideal) x0 x1 x3 x4 x5 x6 x7 x8 x9 x10) x11 (row32 x12)) := by
  funext i
  obtain ⟨r, c, rfl⟩ : ∃ (r : Fin 100000) (c : Fin 32), i = ix2 r c := ⟨i 0, i 1, eq_ix2 i⟩
  rw [val_main_v66_apply, val_main_v65_apply, val_main_v62_apply, val_main_v64_apply, val_main_v63_apply, val_main_call2_v0_apply,
    val_main_call2_cst_apply]
  have e1 : ∀ k : Fin 64, lidx_main_v62 (ix2 r c) k = ix2 r k := fun k => funext fun a => by
    match a with | ⟨0, _⟩ => rfl | ⟨1, _⟩ => rfl
  have e2 : ∀ k : Fin 64, ridx_main_v62 (ix2 r c) k = ix2 k c := fun k => funext fun a => by
    match a with | ⟨0, _⟩ => rfl | ⟨1, _⟩ => rfl
  have e3 : idx_main_v63 (idx_main_v64 (ix2 r c)) = ix1 c := funext fun a => by
    match a with | ⟨0, _⟩ => rfl
  show max ((∑ k : Fin 64, val_main_v61 (F := Ideal) x0 x1 x3 x4 x5 x6 x7 x8 x9 x10 (lidx_main_v62 (ix2 r c) k) * x11 (ridx_main_v62 (ix2 r c) k))
      + x12 (idx_main_v63 (idx_main_v64 (ix2 r c)))) zeroWord
    = max ((∑ k : Fin 64, val_main_v61 (F := Ideal) x0 x1 x3 x4 x5 x6 x7 x8 x9 x10 (ix2 r k) * x11 (ix2 k c)) + row32 x12 (ix2 ⟨0, Nat.one_pos⟩ c)) zeroWord
  rw [show row32 x12 (ix2 ⟨0, Nat.one_pos⟩ c) = x12 (ix1 c) from row_apply (m := 32) x12 _ c]
  simp only [e1, e2, e3]

theorem s70 : val_main_v70 (F := Ideal) x0 x1 x3 x4 x5 x6 x7 x8 x9 x10 x11 x12 x13 x14
    = lin (n := 100000) (k := 32) (m := 1) (val_main_v66 (F := Ideal) x0 x1 x3 x4 x5 x6 x7 x8 x9 x10 x11 x12) x13 (row1 x14) := by
  funext i
  obtain ⟨r, c, rfl⟩ : ∃ (r : Fin 100000) (c : Fin 1), i = ix2 r c := ⟨i 0, i 1, eq_ix2 i⟩
  rw [val_main_v70_apply, val_main_v67_apply, val_main_v69_apply, val_main_v68_apply]
  have e1 : ∀ k : Fin 32, lidx_main_v67 (ix2 r c) k = ix2 r k := fun k => funext fun a => by
    match a with | ⟨0, _⟩ => rfl | ⟨1, _⟩ => rfl
  have e2 : ∀ k : Fin 32, ridx_main_v67 (ix2 r c) k = ix2 k c := fun k => funext fun a => by
    match a with | ⟨0, _⟩ => rfl | ⟨1, _⟩ => rfl
  have e3 : idx_main_v68 (idx_main_v69 (ix2 r c)) = ix1 c := funext fun a => by
    match a with | ⟨0, _⟩ => exact Fin.ext (by have hc := c.isLt; show 0 = c.val; omega)
  show (∑ k : Fin 32, val_main_v66 (F := Ideal) x0 x1 x3 x4 x5 x6 x7 x8 x9 x10 x11 x12 (lidx_main_v67 (ix2 r c) k) * x13 (ridx_main_v67 (ix2 r c) k))
      + x14 (idx_main_v68 (idx_main_v69 (ix2 r c)))
    = (∑ k : Fin 32, val_main_v66 (F := Ideal) x0 x1 x3 x4 x5 x6 x7 x8 x9 x10 x11 x12 (ix2 r k) * x13 (ix2 k c)) + row1 x14 (ix2 ⟨0, Nat.one_pos⟩ c)
  rw [show row1 x14 (ix2 ⟨0, Nat.one_pos⟩ c) = x14 (ix1 c) from row_apply (m := 1) x14 _ c]
  simp only [e1, e2, e3]

/-- THE REFERENCE'S RESULT is the network of its arguments. -/
theorem result_eq : val_main_v70 (F := Ideal) x0 x1 x3 x4 x5 x6 x7 x8 x9 x10 x11 x12 x13 x14 = out x0 x1 x3 x4 x5 x6 x7 x8 x9 x10 x11 x12 x13 x14 := by
  rw [s70, s66, s61, s32]
  rfl

end Cert.ReferenceIdeal.RefValue

end
-- ==== Proof.lean ====
/-
  A two-layer graph network with a small head, on 100000 nodes and 3.2 million edges: the kernel program runs its five dense
  stages as pallas_calls over blocks of 5000 node rows and the edge aggregation on the host; the reference is plain jnp.

  Over the extended reals (a cast between float formats is the identity, every operation exact) both programs compute
      h1  = x · W1a + b1a,                      x1 = max(x · W1b[:256] + mean_agg(h1) · W1b[256:] + b1b, 0),
      h2  = x1 · W2a + b2a,                     x2 = max(x1 · W2b[:128] + mean_agg(h2) · W2b[128:] + b2b, 0),
      out = max(x2 · Wl1 + bl1, 0) · Wl2 + bl2
  (`Net.out`). The kernel forms each update as two contractions, against the upper and the lower rows of the stacked weight;
  the reference sets the node features and the aggregated messages side by side and contracts once against the whole weight.
  The two agree because a sum over 256 + 64 (resp. 128 + 64) terms is the sum of its two parts: addition on the extended reals is
  commutative and associative, so no finiteness of the inputs is used. The mean aggregation (gather the source rows, add them
  into the destination rows, divide by the edge count raised to at least one) is the same chain of host operations in both programs
  and is carried as one function, never opened.

  Kernel side: each pallas_call's output array is a whole-array function of the arrays it found (Region0 … Region4, from the blocks the
  frame's proof data name), the host stretches and the buffers carried between them are read along @main (KernelValue), and the run
  itself is the frame's launch with the result buffer also read (RunValue). Reference side: the generated run and its
  read-at-an-index lemmas, stage by stage (RefValue). The frames of the two kernel programs are the generated ones.
  The idealization rewrote no operation, so `preserves` has nothing to state.
-/
import proofs.«166479_j61529701482519_1_alg».proof.Defs
import proofs.«166479_j61529701482519_1_alg».proof.Proof.Gen.Kernel
import proofs.«166479_j61529701482519_1_alg».proof.Proof.Gen.Kernel.Skeleton
import proofs.«166479_j61529701482519_1_alg».proof.Proof.KernelLaunch
import proofs.«166479_j61529701482519_1_alg».proof.Proof.Gen.Kernel.Points
import proofs.«166479_j61529701482519_1_alg».proof.Proof.KernelFrame
import proofs.«166479_j61529701482519_1_alg».proof.Proof.Gen.KernelIdeal
import proofs.«166479_j61529701482519_1_alg».proof.Proof.Gen.KernelIdeal.Skeleton
import proofs.«166479_j61529701482519_1_alg».proof.Proof.KernelIdealLaunch
import proofs.«166479_j61529701482519_1_alg».proof.Proof.Gen.KernelIdeal.Points
import proofs.«166479_j61529701482519_1_alg».proof.Proof.KernelIdealFrame
import proofs.«166479_j61529701482519_1_alg».proof.Proof.Gen.ReferenceIdeal
import proofs.«166479_j61529701482519_1_alg».proof.Proof.Gen.ReferenceIdeal.Run
import proofs.«166479_j61529701482519_1_alg».proof.Proof.Gen.ReferenceIdeal.Read
import proofs.«166479_j61529701482519_1_alg».proof.Proof.Gen.Pre_finite_inputs
import proofs.«166479_j61529701482519_1_alg».proof.Proof.KernelValue
import proofs.«166479_j61529701482519_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.GenP.frame m ρ

/-- So does its reading over the extended reals. -/
theorem frame_ki : Cert.frame_KernelIdeal := fun m ρ _ => Cert.KernelIdeal.GenP.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the network of those arguments in their result. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6, h7, h8, h9, h10, h11, h12, h13, h14⟩ := hagree c
  rw [Cert.ReferenceIdeal.Read.val_main_v70_eq, Cert.ReferenceIdeal.RefValue.result_eq, h0, h1, h3, h4, h5, h6, h7, h8, h9, h10, h11,
    h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
